-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v0_1)) (v4 : (c : Dev Cert.KernelIdeal.nD) → Buf (Elt Ideal) ((c.tc : Thread Cert.KernelIdeal.nD Cert.KernelIdeal.τ).loc Cert.KernelIdeal.main_v1_1)) (v5 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v0_1) = v3 c
          ∧ r.2.mem ((c.tc : Thread Cert.KernelIdeal.nD Cert.KernelIdeal.τ).loc Cert.KernelIdeal.main_v1_1) = v4 c
          ∧ r.2.mem ((c.tc : Thread Cert.KernelIdeal.nD Cert.KernelIdeal.τ).loc Cert.KernelIdeal.main_v2_1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_v141) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x512 : Shape := ⟨2, ![16384, 512]⟩
abbrev S16384x1024 : Shape := ⟨2, ![16384, 1024]⟩
abbrev S1024x256 : Shape := ⟨2, ![1024, 256]⟩
abbrev S1024x512 : Shape := ⟨2, ![1024, 512]⟩
abbrev S1024x1024 : Shape := ⟨2, ![1024, 1024]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x512 .f32) (main_arg5 : FVec F S1024x1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S16384x256 .f32) (main_arg1 : FVec F S16384x512 .f32) (main_arg2 : FVec F S16384x1024 .f32) (main_arg3 : FVec F S1024x256 .f32) (main_arg4 : FVec F S1024x512 .f32) (main_arg5 : FVec F S1024x1024 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_v13 main_v16
-- ==== Kernel.lean ====
abbrev S16384x256 : Shape := ⟨2, ![16384, 256]⟩
abbrev S16384x512 : Shape := ⟨2, ![16384, 512]⟩
abbrev S16384x1024 : Shape := ⟨2, ![16384, 1024]⟩
abbrev S1024x256 : Shape := ⟨2, ![1024, 256]⟩
abbrev S1024x512 : Shape := ⟨2, ![1024, 512]⟩
abbrev S1024x1024 : Shape := ⟨2, ![1024, 1024]⟩
abbrev S256x256 : Shape := ⟨2, ![256, 256]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1024x1 : Shape := ⟨2, ![1024, 1]⟩
abbrev S16384x2048 : Shape := ⟨2, ![16384, 2048]⟩
abbrev S256x2048 : Shape := ⟨2, ![256, 2048]⟩

abbrev nBuf : Space → Nat
  | .hbm => 12
  | .vmem => 21
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x1024, .f32⟩
  | .hbm, ⟨3, _⟩ => ⟨S1024x256, .f32⟩
  | .hbm, ⟨4, _⟩ => ⟨S1024x512, .f32⟩
  | .hbm, ⟨5, _⟩ => ⟨S1024x1024, .f32⟩
  | .hbm, ⟨6, _⟩ => ⟨S16384x512, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x2048, .f32⟩
  | .hbm, ⟨11, _⟩ => ⟨S16384x1024, .f32⟩
  | .local _ .vmem, ⟨0, _⟩ => ⟨S256x256, .f32⟩
  | .local _ .vmem, ⟨1, _⟩ => ⟨S256x256, .f32⟩
  | .local _ .vmem, ⟨2, _⟩ => ⟨S1024x256, .f32⟩
  | .local _ .vmem, ⟨3, _⟩ => ⟨S256x512, .f32⟩
  | .local _ .vmem, ⟨4, _⟩ => ⟨S256x512, .f32⟩
  | .local _ .vmem, ⟨5, _⟩ => ⟨S256x1024, .f32⟩
  | .local _ .vmem, ⟨6, _⟩ => ⟨S256x1024, .f32⟩
  | .local _ .vmem, ⟨7, _⟩ => ⟨S256x512, .f32⟩
  | .local _ .vmem, ⟨8, _⟩ => ⟨S256x512, .f32⟩
  | .local _ .vmem, ⟨9, _⟩ => ⟨S1024x512, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1024x1024, .f32⟩
  | .local _ .vmem, ⟨17, _⟩ => ⟨S256x2048, .f32⟩
  | .local _ .vmem, ⟨18, _⟩ => ⟨S256x2048, .f32⟩
  | .local _ .vmem, ⟨19, _⟩ => ⟨S256x1024, .f32⟩
  | .local _ .vmem, ⟨20, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S256x256_S256x256_0_0 : ∀ a, (![0, 0] : Fin 2 → Nat) a + S256x256.size a ≤ S256x256.size a
  h_S256x256 : 0 < S256x256.numel
  inb_S1024x256_S1024x256_0_0 : ∀ a, (![0, 0] : Fin 2 → Nat) a + S1024x256.size a ≤ S1024x256.size a
  h_S1024x256 : 0 < S1024x256.numel
  reduces_S256x256_S256 : S256x256.Reduces [1] S256
  shapeCasts_S256_S256x1 : S256.ShapeCasts S256x1
  broadcasts_S256x1_S256x256 : S256x1.Broadcasts S256x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  reduces_S256x1024_S256 : S256x1024.Reduces [1] S256
  broadcasts_S256x1_S256x1024 : S256x1.Broadcasts S256x1024
  inb_S256x512_S256x256_0_0 : ∀ a, (![0, 0] : Fin 2 → Nat) a + S256x256.size a ≤ S256x512.size a
  inb_S256x512_S256x256_0_256 : ∀ a, (![0, 256] : Fin 2 → Nat) a + S256x256.size a ≤ S256x512.size a
  inb_S256x1024_S256x1024_0_0 : ∀ a, (![0, 0] : Fin 2 → Nat) a + S256x1024.size a ≤ S256x1024.size a
  h_S256x1024 : 0 < S256x1024.numel
  inb_S256x512_S256x512_0_0 : ∀ a, (![0, 0] : Fin 2 → Nat) a + S256x512.size a ≤ S256x512.size a
  h_S256x512 : 0 < S256x512.numel
  inb_S1024x512_S1024x512_0_0 : ∀ a, (![0, 0] : Fin 2 → Nat) a + S1024x512.size a ≤ S1024x512.size a
  h_S1024x512 : 0 < S1024x512.numel
  reduces_S256x512_S256 : S256x512.Reduces [1] S256
  broadcasts_S256x1_S256x512 : S256x1.Broadcasts S256x512
  reduces_S1024x512_S1024 : S1024x512.Reduces [1] S1024
  broadcasts_S1024x1_S1024x512 : S1024x1.Broadcasts S1024x512
  inb_S256x1024_S256x512_0_0 : ∀ a, (![0, 0] : Fin 2 → Nat) a + S256x512.size a ≤ S256x1024.size a
  inb_S256x1024_S256x512_0_512 : ∀ a, (![0, 512] : Fin 2 → Nat) a + S256x512.size a ≤ S256x1024.size a
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  broadcasts_S1024x1_S1024x1024 : S1024x1.Broadcasts S1024x1024
  inb_S256x2048_S256x1024_0_0 : ∀ a, (![0, 0] : Fin 2 → Nat) a + S256x1024.size a ≤ S256x2048.size a
  inb_S256x2048_S256x1024_0_1024 : ∀ a, (![0, 1024] : Fin 2 → Nat) a + S256x1024.size a ≤ S256x2048.size a
  dot_S256x256_S1024x256_S256x1024_1_1_0_0_n_n_wf : DotDims.WF S256x256 S1024x256 S256x1024 [1] [1] [0] [0] [] []
  dot_S256x1024_S1024x256_S256x256_1_0_0_1_n_n_wf : DotDims.WF S256x1024 S1024x256 S256x256 [1] [0] [0] [1] [] []
  dot_S256x512_S1024x512_S256x1024_1_1_0_0_n_n_wf : DotDims.WF S256x512 S1024x512 S256x1024 [1] [1] [0] [0] [] []
  dot_S256x1024_S1024x512_S256x512_1_0_0_1_n_n_wf : DotDims.WF S256x1024 S1024x512 S256x512 [1] [0] [0] [1] [] []
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S16384x256.size a
  hwx0_0 : ∀ i : grid0.Coords, EltTy.bits .f32 = 32 ∨ (Rect.block (s := S16384x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S16384x512.size a
  hwx0_2 : ∀ i : grid0.Coords, EltTy.bits .f32 = 32 ∨ (Rect.block (s := S16384x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S16384x1024.size a
  hwx0_3 : ∀ i : grid0.Coords, EltTy.bits .f32 = 32 ∨ (Rect.block (s := S16384x1024) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S16384x512.size a
  hwx1_0 : ∀ i : grid1.Coords, EltTy.bits .f32 = 32 ∨ (Rect.block (s := S16384x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S16384x1024.size a
  hwx1_2 : ∀ i : grid1.Coords, EltTy.bits .f32 = 32 ∨ (Rect.block (s := S16384x1024) S256x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S16384x1024.size a
  hwx1_3 : ∀ i : grid1.Coords, EltTy.bits .f32 = 32 ∨ (Rect.block (s := S16384x1024) S256x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S16384x1024.size a
  hwx2_0 : ∀ i : grid2.Coords, EltTy.bits .f32 = 32 ∨ (Rect.block (s := S16384x1024) S256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x2048.size a ≤ S16384x2048.size a
  hwx2_2 : ∀ i : grid2.Coords, EltTy.bits .f32 = 32 ∨ (Rect.block (s := S16384x2048) S256x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S16384x1024.size a
  hwx2_3 : ∀ i : grid2.Coords, EltTy.bits .f32 = 32 ∨ (Rect.block (s := S16384x1024) S256x1024.size (cc2_transform_3 i) (hinb2_3 i)).WholeWords (EltTy.packing .f32)

variable [Facts₀]

def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S256x1024.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2_0) S256x2048.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2_1) S256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16384x256 : Shape := ⟨2, ![16384, 256]⟩
abbrev S16384x512 : Shape := ⟨2, ![16384, 512]⟩
abbrev S16384x1024 : Shape := ⟨2, ![16384, 1024]⟩
abbrev S1024x256 : Shape := ⟨2, ![1024, 256]⟩
abbrev S1024x512 : Shape := ⟨2, ![1024, 512]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x1 : Shape := ⟨2, ![1024, 1]⟩
abbrev S256x1024 : Shape := ⟨2, ![256, 1024]⟩
abbrev S512x1024 : Shape := ⟨2, ![512, 1024]⟩
abbrev S16384x2048 : Shape := ⟨2, ![16384, 2048]⟩

abbrev nBuf : Space → Nat
  | .hbm => 192
  | .vmem => 0
  | .smem => 0
  | _ => 0

abbrev hbmTy0_0 (i : Nat) : BufTy := match i % 128 with
  | 0 => ⟨S16384x256, .f32⟩
  | 1 => ⟨S16384x512, .f32⟩
  | 2 => ⟨S16384x1024, .f32⟩
  | 3 => ⟨S1024x256, .f32⟩
  | 4 => ⟨S1024x512, .f32⟩
  | 5 => ⟨S1024x1024, .f32⟩
  | 6 => ⟨S16384x256, .f32⟩
  | 7 => ⟨S_, .f32⟩
  | 8 => ⟨S16384, .f32⟩
  | 9 => ⟨S16384x1, .f32⟩
  | 10 => ⟨S16384x1, .f32⟩
  | 11 => ⟨S_, .f32⟩
  | 12 => ⟨S16384x1, .f32⟩
  | 13 => ⟨S16384x1, .f32⟩
  | 14 => ⟨S16384x256, .f32⟩
  | 15 => ⟨S16384x256, .f32⟩
  | 16 => ⟨S1024x256, .f32⟩
  | 17 => ⟨S_, .f32⟩
  | 18 => ⟨S1024, .f32⟩
  | 19 => ⟨S1024x1, .f32⟩
  | 20 => ⟨S1024x1, .f32⟩
  | 21 => ⟨S_, .f32⟩
  | 22 => ⟨S1024x1, .f32⟩
  | 23 => ⟨S1024x1, .f32⟩
  | 24 => ⟨S1024x256, .f32⟩
  | 25 => ⟨S1024x256, .f32⟩
  | 26 => ⟨S256x1024, .f32⟩
  | 27 => ⟨S16384x1024, .f32⟩
  | 28 => ⟨S_, .f32⟩
  | 29 => ⟨S16384, .f32⟩
  | 30 => ⟨S_, .f32⟩
  | 31 => ⟨S16384, .f32⟩
  | 32 => ⟨S16384, .f32⟩
  | 33 => ⟨S16384x1, .f32⟩
  | 34 => ⟨S16384x1024, .f32⟩
  | 35 => ⟨S16384x1024, .f32⟩
  | 36 => ⟨S16384x1024, .f32⟩
  | 37 => ⟨S_, .f32⟩
  | 38 => ⟨S16384, .f32⟩
  | 39 => ⟨S16384x1, .f32⟩
  | 40 => ⟨S16384x1024, .f32⟩
  | 41 => ⟨S16384x1024, .f32⟩
  | 42 => ⟨S_, .f32⟩
  | 43 => ⟨S16384x1024, .f32⟩
  | 44 => ⟨S16384x1024, .f32⟩
  | 45 => ⟨S_, .f32⟩
  | 46 => ⟨S16384x1024, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S16384x1024, .f32⟩
  | 53 => ⟨S_, .f32⟩
  | 54 => ⟨S16384x1024, .f32⟩
  | 55 => ⟨S16384x1024, .f32⟩
  | 56 => ⟨S16384x1024, .f32⟩
  | 57 => ⟨S16384x1024, .f32⟩
  | 58 => ⟨S_, .f32⟩
  | 59 => ⟨S16384, .f32⟩
  | 60 => ⟨S16384x1, .f32⟩
  | 61 => ⟨S_, .f32⟩
  | 62 => ⟨S16384x1, .f32⟩
  | 63 => ⟨S16384x1, .f32⟩
  | 64 => ⟨S16384x1024, .f32⟩
  | 65 => ⟨S16384x1024, .f32⟩
  | 66 => ⟨S16384x256, .f32⟩
  | 67 => ⟨S16384x512, .f32⟩
  | 68 => ⟨S16384x512, .f32⟩
  | 69 => ⟨S_, .f32⟩
  | 70 => ⟨S16384, .f32⟩
  | 71 => ⟨S16384x1, .f32⟩
  | 72 => ⟨S16384x1, .f32⟩
  | 73 => ⟨S_, .f32⟩
  | 74 => ⟨S16384x1, .f32⟩
  | 75 => ⟨S16384x1, .f32⟩
  | 76 => ⟨S16384x512, .f32⟩
  | 77 => ⟨S16384x512, .f32⟩
  | 78 => ⟨S1024x512, .f32⟩
  | 79 => ⟨S_, .f32⟩
  | 80 => ⟨S1024, .f32⟩
  | 81 => ⟨S1024x1, .f32⟩
  | 82 => ⟨S1024x1, .f32⟩
  | 83 => ⟨S_, .f32⟩
  | 84 => ⟨S1024x1, .f32⟩
  | 85 => ⟨S1024x1, .f32⟩
  | 86 => ⟨S1024x512, .f32⟩
  | 87 => ⟨S1024x512, .f32⟩
  | 88 => ⟨S512x1024, .f32⟩
  | 89 => ⟨S16384x1024, .f32⟩
  | 90 => ⟨S_, .f32⟩
  | 91 => ⟨S16384, .f32⟩
  | 92 => ⟨S_, .f32⟩
  | 93 => ⟨S16384, .f32⟩
  | 94 => ⟨S16384, .f32⟩
  | 95 => ⟨S16384x1, .f32⟩
  | 96 => ⟨S16384x1024, .f32⟩
  | 97 => ⟨S16384x1024, .f32⟩
  | 98 => ⟨S16384x1024, .f32⟩
  | 99 => ⟨S_, .f32⟩
  | 100 => ⟨S16384, .f32⟩
  | 101 => ⟨S16384x1, .f32⟩
  | 102 => ⟨S16384x1024, .f32⟩
  | 103 => ⟨S16384x1024, .f32⟩
  | 104 => ⟨S_, .f32⟩
  | 105 => ⟨S16384x1024, .f32⟩
  | 106 => ⟨S16384x1024, .f32⟩
  | 107 => ⟨S_, .f32⟩
  | 108 => ⟨S16384x1024, .f32⟩
  | 109 => ⟨S16384x1024, .f32⟩
  | 110 => ⟨S16384x1024, .f32⟩
  | 111 => ⟨S_, .f32⟩
  | 112 => ⟨S16384x1024, .f32⟩
  | 113 => ⟨S16384x1024, .f32⟩
  | 114 => ⟨S16384x1024, .f32⟩
  | 115 => ⟨S_, .f32⟩
  | 116 => ⟨S16384x1024, .f32⟩
  | 117 => ⟨S16384x1024, .f32⟩
  | 118 => ⟨S16384x1024, .f32⟩
  | 119 => ⟨S16384x1024, .f32⟩
  | 120 => ⟨S_, .f32⟩
  | 121 => ⟨S16384, .f32⟩
  | 122 => ⟨S16384x1, .f32⟩
  | 123 => ⟨S_, .f32⟩
  | 124 => ⟨S16384x1, .f32⟩
  | 125 => ⟨S16384x1, .f32⟩
  | 126 => ⟨S16384x1024, .f32⟩
  | 127 => ⟨S16384x1024, .f32⟩
  | _ => ⟨S16384x256, .f32⟩

abbrev hbmTy0_1 (i : Nat) : BufTy := match i % 128 with
  | 0 => ⟨S16384x512, .f32⟩
  | 1 => ⟨S16384x1024, .f32⟩
  | 2 => ⟨S16384x1024, .f32⟩
  | 3 => ⟨S_, .f32⟩
  | 4 => ⟨S16384, .f32⟩
  | 5 => ⟨S16384x1, .f32⟩
  | 6 => ⟨S16384x1, .f32⟩
  | 7 => ⟨S_, .f32⟩
  | 8 => ⟨S16384x1, .f32⟩
  | 9 => ⟨S16384x1, .f32⟩
  | 10 => ⟨S16384x1024, .f32⟩
  | 11 => ⟨S16384x1024, .f32⟩
  | 12 => ⟨S1024x1024, .f32⟩
  | 13 => ⟨S_, .f32⟩
  | 14 => ⟨S1024, .f32⟩
  | 15 => ⟨S1024x1, .f32⟩
  | 16 => ⟨S1024x1, .f32⟩
  | 17 => ⟨S_, .f32⟩
  | 18 => ⟨S1024x1, .f32⟩
  | 19 => ⟨S1024x1, .f32⟩
  | 20 => ⟨S1024x1024, .f32⟩
  | 21 => ⟨S1024x1024, .f32⟩
  | 22 => ⟨S1024x1024, .f32⟩
  | 23 => ⟨S16384x1024, .f32⟩
  | 24 => ⟨S_, .f32⟩
  | 25 => ⟨S16384, .f32⟩
  | 26 => ⟨S_, .f32⟩
  | 27 => ⟨S16384, .f32⟩
  | 28 => ⟨S16384, .f32⟩
  | 29 => ⟨S16384x1, .f32⟩
  | 30 => ⟨S16384x1024, .f32⟩
  | 31 => ⟨S16384x1024, .f32⟩
  | 32 => ⟨S16384x1024, .f32⟩
  | 33 => ⟨S_, .f32⟩
  | 34 => ⟨S16384, .f32⟩
  | 35 => ⟨S16384x1, .f32⟩
  | 36 => ⟨S16384x1024, .f32⟩
  | 37 => ⟨S16384x1024, .f32⟩
  | 38 => ⟨S_, .f32⟩
  | 39 => ⟨S16384x1024, .f32⟩
  | 40 => ⟨S16384x1024, .f32⟩
  | 41 => ⟨S_, .f32⟩
  | 42 => ⟨S16384x1024, .f32⟩
  | 43 => ⟨S16384x1024, .f32⟩
  | 44 => ⟨S16384x1024, .f32⟩
  | 45 => ⟨S_, .f32⟩
  | 46 => ⟨S16384x1024, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S16384x1024, .f32⟩
  | 53 => ⟨S16384x1024, .f32⟩
  | 54 => ⟨S_, .f32⟩
  | 55 => ⟨S16384, .f32⟩
  | 56 => ⟨S16384x1, .f32⟩
  | 57 => ⟨S_, .f32⟩
  | 58 => ⟨S16384x1, .f32⟩
  | 59 => ⟨S16384x1, .f32⟩
  | 60 => ⟨S16384x1024, .f32⟩
  | 61 => ⟨S16384x1024, .f32⟩
  | 62 => ⟨S16384x1024, .f32⟩
  | 63 => ⟨S16384x2048, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_15 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_17 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_18 : Ref sig .tc := ⟨.hbm, 104, rfl⟩
abbrev main_v77 : Ref sig .tc := ⟨.hbm, 105, rfl⟩
abbrev main_v78 : Ref sig .tc := ⟨.hbm, 106, rfl⟩
abbrev main_call1_cst : Ref sig .tc := ⟨.hbm, 107, rfl⟩
abbrev main_call1_v0 : Ref sig .tc := ⟨.hbm, 108, rfl⟩
abbrev main_v79 : Ref sig .tc := ⟨.hbm, 109, rfl⟩
abbrev main_v80 : Ref sig .tc := ⟨.hbm, 110, rfl⟩
abbrev main_cst_19 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_20 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_21 : Ref sig .tc := ⟨.hbm, 120, rfl⟩
abbrev main_v88 : Ref sig .tc := ⟨.hbm, 121, rfl⟩
abbrev main_v89 : Ref sig .tc := ⟨.hbm, 122, rfl⟩
abbrev main_cst_22 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_23 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_24 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_25 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_26 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_27 : Ref sig .tc := ⟨.hbm, 152, rfl⟩
abbrev main_v114 : Ref sig .tc := ⟨.hbm, 153, rfl⟩
abbrev main_cst_28 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_29 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_30 : Ref sig .tc := ⟨.hbm, 166, rfl⟩
abbrev main_v125 : Ref sig .tc := ⟨.hbm, 167, rfl⟩
abbrev main_v126 : Ref sig .tc := ⟨.hbm, 168, rfl⟩
abbrev main_call2_cst : Ref sig .tc := ⟨.hbm, 169, rfl⟩
abbrev main_call2_v0 : Ref sig .tc := ⟨.hbm, 170, rfl⟩
abbrev main_v127 : Ref sig .tc := ⟨.hbm, 171, rfl⟩
abbrev main_v128 : Ref sig .tc := ⟨.hbm, 172, rfl⟩
abbrev main_cst_31 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_32 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_33 : Ref sig .tc := ⟨.hbm, 182, rfl⟩
abbrev main_v136 : Ref sig .tc := ⟨.hbm, 183, rfl⟩
abbrev main_v137 : Ref sig .tc := ⟨.hbm, 184, rfl⟩
abbrev main_cst_34 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  reducesTo_S1024x256_S1024_d1 : S1024x256.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  transposes_S1024x256_S256x1024_1_0 : S1024x256.Transposes [1, 0] S256x1024
  reducesTo_S16384x1024_S16384_d1 : S16384x1024.ReducesTo [1] S16384
  bcast_S_S16384 : S_.BroadcastsInDim S16384 (![] : Fin 0 → Fin S16384.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  concatenates_S16384x256_S16384x256_S16384x512_d1 : Shape.Concatenates [S16384x256, S16384x256] S16384x512 1
  reducesTo_S16384x512_S16384_d1 : S16384x512.ReducesTo [1] S16384
  bcast_S16384x1_S16384x512_0_1 : S16384x1.BroadcastsInDim S16384x512 (![0, 1] : Fin 2 → Fin S16384x512.rank)
  reducesTo_S1024x512_S1024_d1 : S1024x512.ReducesTo [1] S1024
  bcast_S1024x1_S1024x512_0_1 : S1024x1.BroadcastsInDim S1024x512 (![0, 1] : Fin 2 → Fin S1024x512.rank)
  transposes_S1024x512_S512x1024_1_0 : S1024x512.Transposes [1, 0] S512x1024
  concatenates_S16384x512_S16384x512_S16384x1024_d1 : Shape.Concatenates [S16384x512, S16384x512] S16384x1024 1
  reducesTo_S1024x1024_S1024_d1 : S1024x1024.ReducesTo [1] S1024
  bcast_S1024x1_S1024x1024_0_1 : S1024x1.BroadcastsInDim S1024x1024 (![0, 1] : Fin 2 → Fin S1024x1024.rank)
  transposes_S1024x1024_S1024x1024_1_0 : S1024x1024.Transposes [1, 0] S1024x1024
  concatenates_S16384x1024_S16384x1024_S16384x2048_d1 : Shape.Concatenates [S16384x1024, S16384x1024] S16384x2048 1
  dot_S16384x256_S256x1024_S16384x1024_1_0_0_1_n_n_wf : DotDims.WF S16384x256 S256x1024 S16384x1024 [1] [0] [0] [1] [] []
  dot_S16384x1024_S1024x256_S16384x256_1_0_0_1_n_n_wf : DotDims.WF S16384x1024 S1024x256 S16384x256 [1] [0] [0] [1] [] []
  dot_S16384x512_S512x1024_S16384x1024_1_0_0_1_n_n_wf : DotDims.WF S16384x512 S512x1024 S16384x1024 [1] [0] [0] [1] [] []
  dot_S16384x1024_S1024x512_S16384x512_1_0_0_1_n_n_wf : DotDims.WF S16384x1024 S1024x512 S16384x512 [1] [0] [0] [1] [] []
  dot_S16384x1024_S1024x1024_S16384x1024_1_0_0_1_n_n_wf : DotDims.WF S16384x1024 S1024x1024 S16384x1024 [1] [0] [0] [1] [] []

variable [Facts₀]

def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf
def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.MemUnit.lean ====
/-
  One memory-read unit, row by row, on the extended reals.

  A feature row `x : Fin C → EReal` is scaled to unit Euclidean length (its length floored at the word `0x2B8CBCCC`, the f32
  nearest 1e-12), and so is every memory row `mem j : Fin C → EReal`. The row's similarity to memory slot `j` is the inner product of
  the two unit rows. The similarities pass through a softmax along the memory axis (shifted by the row's maximum, taken from −∞),
  every weight is shrunk towards zero — `max (w − t) 0 · w / (|w − t| + ε)`, with `t` the word `0x3B23D70A` (the f32 nearest
  0.0025) and `ε` the floor word again — and the shrunk weights are scaled to unit absolute sum (the sum floored at the same word).
  The unit returns the weights, and the memory read `∑ j, w j · mem j k` joined with the feature row itself.

  Every operation is the extended reals' own (`Ideal.div`, `Ideal.sqrt`, `Ideal.exp`, `max`), each word is kept as a word, and a
  sum starts from nothing; so both programs meet these functions without any law of arithmetic.
-/
import Idealize.ShloMosaic.PureOps.Ideal
import Idealize.ShloMosaic.PureOps.Ideal.Laws
import Idealize.ShloMosaic.Lib.ValueIdx

noncomputable section

open scoped BigOperators

namespace Cert.MemUnit

open Idealize.ShloMosaic Idealize.ShloMosaic.ValueIdx

/-- The floor under a length or an absolute sum, and the term added to the shrink's denominator. -/
abbrev floorW : EReal := Ideal.ofBits .f32 0x2B8CBCCC#32
/-- The shrink's threshold. -/
abbrev cutW : EReal := Ideal.ofBits .f32 0x3B23D70A#32
/-- The f32 zero word (the other operand of the shrink's `max`). -/
abbrev zeroW : EReal := Ideal.ofBits .f32 0x00000000#32
/-- The f32 word of −∞, from which a row's maximum is taken. -/
abbrev bottomW : EReal := Ideal.ofBits .f32 0xFF800000#32

/-- The absolute value as both programs compute it. -/
abbrev abs' (x : EReal) : EReal := FloatOps.absf (F := Ideal) (φ := .f32) x

/-- The floored Euclidean length of a row. -/
def len {n : ℕ} (x : Fin n → EReal) : EReal := max (Ideal.sqrt (∑ k, x k * x k)) floorW

/-- A row scaled to unit length. -/
def unit {n : ℕ} (x : Fin n → EReal) (k : Fin n) : EReal := Ideal.div (x k) (len x)

/-- The similarity of a feature row to memory slot `j`. -/
def sim {C M : ℕ} (x : Fin C → EReal) (mem : Fin M → Fin C → EReal) (j : Fin M) : EReal :=
  ∑ k, unit x k * unit (mem j) k

/-- The maximum of a row of similarities, taken from −∞. -/
def top {M : ℕ} (s : Fin M → EReal) : EReal := (Finset.univ : Finset (Fin M)).fold max bottomW s

/-- The shifted exponential of a similarity. -/
def ex {M : ℕ} (s : Fin M → EReal) (j : Fin M) : EReal := Ideal.exp (s j - top s)

/-- The softmax of a row of similarities. -/
def soft {M : ℕ} (s : Fin M → EReal) (j : Fin M) : EReal := Ideal.div (ex s j) (∑ j', ex s j')

/-- One weight shrunk towards zero. -/
def shrink (w : EReal) : EReal := Ideal.div (max (w - cutW) zeroW * w) (abs' (w - cutW) + floorW)

/-- The shrunk softmax weights of a feature row, before they are scaled. -/
def raw {C M : ℕ} (x : Fin C → EReal) (mem : Fin M → Fin C → EReal) (j : Fin M) : EReal :=
  shrink (soft (sim x mem) j)

/-- The floored absolute sum of the shrunk weights. -/
def mass {C M : ℕ} (x : Fin C → EReal) (mem : Fin M → Fin C → EReal) : EReal :=
  max (∑ j, abs' (raw x mem j)) floorW

/-- The unit's weights for a feature row. -/
def weight {C M : ℕ} (x : Fin C → EReal) (mem : Fin M → Fin C → EReal) (j : Fin M) : EReal :=
  Ideal.div (raw x mem j) (mass x mem)

/-- The unit's memory read for a feature row. -/
def read {C M : ℕ} (x : Fin C → EReal) (mem : Fin M → Fin C → EReal) (k : Fin C) : EReal :=
  ∑ j, weight x mem j * mem j k

/-! ## The unit over whole arrays

  `feat` holds `N` feature rows of `C` channels, `mem` holds `M` memory rows of `C` channels. -/

/-- Row `r` of a rank-2 array. -/
abbrev rowOf {N C : ℕ} (a : (⟨2, ![N, C]⟩ : Shape).Idx → EReal) (r : Fin N) : Fin C → EReal := fun k => a (ix2 r k)

/-- The rows of a rank-2 array. -/
abbrev rowsOf {M C : ℕ} (a : (⟨2, ![M, C]⟩ : Shape).Idx → EReal) : Fin M → Fin C → EReal := fun j k => a (ix2 j k)

/-- The unit's weights: entry `(r, j)` is the weight of feature row `r` for memory slot `j`. -/
def weights {N C M : ℕ} (feat : (⟨2, ![N, C]⟩ : Shape).Idx → EReal) (mem : (⟨2, ![M, C]⟩ : Shape).Idx → EReal) :
    (⟨2, ![N, M]⟩ : Shape).Idx → EReal :=
  fun i => weight (rowOf feat ⟨(i 0).val, idx2_lt0 i⟩) (rowsOf mem) ⟨(i 1).val, idx2_lt1 i⟩

/-- The unit's other result, `D = C + C` channels wide: the memory read of feature row `r` in the first `C` channels, the feature row
    itself in the last `C`. -/
def joined {N C M D : ℕ} (hD : D = C + C) (feat : (⟨2, ![N, C]⟩ : Shape).Idx → EReal) (mem : (⟨2, ![M, C]⟩ : Shape).Idx → EReal) :
    (⟨2, ![N, D]⟩ : Shape).Idx → EReal :=
  fun i =>
    if h : (i 1).val < C then read (rowOf feat ⟨(i 0).val, idx2_lt0 i⟩) (rowsOf mem) ⟨(i 1).val, h⟩
    else feat (ix2 ⟨(i 0).val, idx2_lt0 i⟩ ⟨(i 1).val - C, by have := idx2_lt1 i; omega⟩)

/-- The weights read at an index whose coordinates are `(r, j)`. -/
theorem weights_at {N C M : ℕ} (feat : (⟨2, ![N, C]⟩ : Shape).Idx → EReal) (mem : (⟨2, ![M, C]⟩ : Shape).Idx → EReal)
    (i : (⟨2, ![N, M]⟩ : Shape).Idx) (r : Fin N) (j : Fin M) (h0 : (i 0).val = r.val) (h1 : (i 1).val = j.val) :
    weights feat mem i = weight (rowOf feat r) (rowsOf mem) j := by
  have e0 : (⟨(i 0).val, idx2_lt0 i⟩ : Fin N) = r := Fin.ext h0
  have e1 : (⟨(i 1).val, idx2_lt1 i⟩ : Fin M) = j := Fin.ext h1
  unfold weights
  rw [e0, e1]

/-- The joined result read at an index `(r, k)` of its first `C` channels: the memory read. -/
theorem joined_at_read {N C M D : ℕ} (hD : D = C + C) (feat : (⟨2, ![N, C]⟩ : Shape).Idx → EReal) (mem : (⟨2, ![M, C]⟩ : Shape).Idx → EReal)
    (i : (⟨2, ![N, D]⟩ : Shape).Idx) (r : Fin N) (k : Fin C) (h0 : (i 0).val = r.val) (h1 : (i 1).val = k.val) :
    joined hD feat mem i = read (rowOf feat r) (rowsOf mem) k := by
  have e0 : (⟨(i 0).val, idx2_lt0 i⟩ : Fin N) = r := Fin.ext h0
  have hk : (i 1).val < C := by have := k.isLt; omega
  have e1 : (⟨(i 1).val, hk⟩ : Fin C) = k := Fin.ext h1
  unfold joined
  rw [dif_pos hk, e0, e1]

/-- The joined result read at an index `(r, C + k)` of its last `C` channels: the feature itself. -/
theorem joined_at_feat {N C M D : ℕ} (hD : D = C + C) (feat : (⟨2, ![N, C]⟩ : Shape).Idx → EReal) (mem : (⟨2, ![M, C]⟩ : Shape).Idx → EReal)
    (i : (⟨2, ![N, D]⟩ : Shape).Idx) (r : Fin N) (k : Fin C) (h0 : (i 0).val = r.val) (h1 : (i 1).val = C + k.val) :
    joined hD feat mem i = feat (ix2 r k) := by
  have hk : ¬ (i 1).val < C := by omega
  unfold joined
  rw [dif_neg hk]
  exact congrArg feat (funext fun a => Fin.ext (by
    match a with
    | ⟨0, _⟩ => exact h0
    | ⟨1, _⟩ => show (i 1).val - C = k.val; omega))

/-- From −∞ a maximum is its other operand. -/
theorem bottomW_max (y : EReal) : max bottomW y = y := by
  have h : bottomW = ⊥ := by simp [bottomW, Ideal.ofBits, Ideal.ieee]
  rw [h]; exact max_bot_left y

/-- A sum started from the zero word is the sum. -/
theorem zeroW_add (y : EReal) : zeroW + y = y := by
  rw [show zeroW = 0 from Ideal.ofBits_zero_f32]; exact zero_add y

end Cert.MemUnit

end
-- ==== Proof.LibRowOps.lean ====
/-
  A lane reduction kept as a column, and a column spread back over the lanes, read at an index on the extended reals.

  For a rank-2 vector `v` of `R` rows and `C` lanes: the sum (or, from a given word, the maximum) of each row over its lanes,
  cast from `[R]` to the column shape `[R, 1]`, holds at `(p, q)` the sum (the maximum) of row `p`; a column `[R, 1]` broadcast
  to `[R, C]` holds at `(p, k)` the column's entry of row `p`. The host's forms of the same (a `reduce` over axis 1, a
  `broadcast_in_dim` on axis 0 or on both axes) read likewise. All are stated at coordinates `p : Fin R`, `k : Fin C`, so that
  they rewrite a term at `ix2 p k` whatever the literal extents.
-/
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.RowOps

open Idealize.ShloMosaic Idealize.ShloMosaic.ValueIdx

variable {R C : ℕ}

/-- The exponential, the square root and the absolute value of a vector read entry by entry. -/
theorem exp_apply {s : Shape} (v : FVec Ideal s .f32) (i : s.Idx) : exp v i = Ideal.exp (v i) := rfl
theorem sqrt_apply {s : Shape} (v : FVec Ideal s .f32) (i : s.Idx) : sqrt v i = Ideal.sqrt (v i) := rfl
theorem absf_apply {s : Shape} (v : FVec Ideal s .f32) (i : s.Idx) : absf v i = FloatOps.absf (F := Ideal) (φ := .f32) (v i) := rfl

/-- Row `p` with lane `k` put back on axis 1 is the index `(p, k)`. -/
theorem lift_lane (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- The column shape's entry `(p, q)` sits at row-major position `p`, as entry `p` of the vector does. -/
theorem col_pos (p : Fin R) (q : Fin 1) :
    ((⟨1, ![R]⟩ : Shape).rowMajor (ix1 p)).val = ((⟨2, ![R, 1]⟩ : Shape).rowMajor (ix2 p q)).val := by
  rw [Shape.rowMajor_val_one, Shape.rowMajor_val_two]
  have := q.isLt
  show p.val = p.val * 1 + q.val
  omega

/-- A vector cast to a column reads, at `(p, q)`, its entry `p`. -/
theorem castCol_apply {α : Type} (x : (⟨1, ![R]⟩ : Shape).Idx → α) (hc : (⟨1, ![R]⟩ : Shape).ShapeCasts (⟨2, ![R, 1]⟩ : Shape))
    (p : Fin R) (q : Fin 1) : shapeCast (⟨2, ![R, 1]⟩ : Shape) x hc (ix2 p q) = x (ix1 p) :=
  shapeCast_apply x hc (ix2 p q) (ix1 p) (col_pos p q)

/-- The lane sum of a vector, read at row `p`. -/
theorem laneSum_apply (v : FVec Ideal (⟨2, ![R, C]⟩ : Shape) .f32) (acc : BitVec 32)
    (h : (⟨2, ![R, C]⟩ : Shape).Reduces [1] (⟨1, ![R]⟩ : Shape)) (hφ : FKind.Formats .f32) (hacc : acc = FKind.add.neutral .f32 hφ)
    (p : Fin R) : multiReduction .add [1] (⟨1, ![R]⟩ : Shape) v acc h hφ hacc (ix1 p) = ∑ k : Fin C, v (ix2 p k) := by
  rw [Ideal.multiReduction_add_single]
  show ∑ k : Fin C, v (h.lift (ix1 p) k) = _
  exact Finset.sum_congr rfl fun k _ => congrArg v (lift_lane h p k)

/-- The lane maximum of a vector from the word `acc`, read at row `p`. -/
theorem laneMax_apply (v : FVec Ideal (⟨2, ![R, C]⟩ : Shape) .f32) (acc : BitVec 32)
    (h : (⟨2, ![R, C]⟩ : Shape).Reduces [1] (⟨1, ![R]⟩ : Shape)) (hφ : FKind.Formats .f32) (hacc : acc = FKind.maximumf.neutral .f32 hφ)
    (p : Fin R) : multiReduction .maximumf [1] (⟨1, ![R]⟩ : Shape) v acc h hφ hacc (ix1 p)
      = (Finset.univ : Finset (Fin C)).fold max (Ideal.ofBits .f32 acc) (fun k => v (ix2 p k)) := by
  rw [Ideal.multiReduction_maximumf_single]
  show (Finset.univ : Finset (Fin C)).fold max (Ideal.ofBits .f32 acc) (v ∘ h.lift (ix1 p)) = _
  exact congrArg (fun f => (Finset.univ : Finset (Fin C)).fold max (Ideal.ofBits .f32 acc) f)
    (funext fun k => congrArg v (lift_lane h p k))

/-- A column spread over the lanes reads, at `(p, k)`, the column's entry of row `p`. -/
theorem spreadCol_apply {α : Type} (col : (⟨2, ![R, 1]⟩ : Shape).Idx → α)
    (hb : (⟨2, ![R, 1]⟩ : Shape).Broadcasts (⟨2, ![R, C]⟩ : Shape)) (p : Fin R) (k : Fin C) :
    broadcastTo (⟨2, ![R, C]⟩ : Shape) col hb (ix2 p k) = col (ix2 p (0 : Fin 1)) :=
  broadcastTo_apply col hb (ix2 p k) (ix2 p (0 : Fin 1)) (fun a => by
    match a with
    | ⟨0, _⟩ =>
      show p.val = if R = 1 then 0 else p.val
      split
      · have := p.isLt; omega
      · rfl
    | ⟨1, _⟩ =>
      show (0 : Fin 1).val = if (1 : ℕ) = 1 then 0 else k.val
      simp)

/-- The host's reduce with a maximum body over the lanes, from the rank-zero initial value, read at row `p`. -/
theorem hostLaneMax_apply {u : Shape} (x : FVec Ideal (⟨2, ![R, C]⟩ : Shape) .f32) (init : u.Idx → Ideal .f32)
    (h' : (⟨2, ![R, C]⟩ : Shape).ReducesTo [1] (⟨1, ![R]⟩ : Shape)) (h : (⟨2, ![R, C]⟩ : Shape).Reduces [1] (⟨1, ![R]⟩ : Shape))
    (hu : 0 < u.numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  show (Finset.univ : Finset (Fin C)).fold max (init (Shape.Idx.first hu)) (x ∘ h.lift (ix1 p)) = _
  exact congrArg (fun f => (Finset.univ : Finset (Fin C)).fold max (init (Shape.Idx.first hu)) f)
    (funext fun k => congrArg x (lift_lane h p k))

end Cert.RowOps

end
-- ==== Proof.Unit0Body.lean ====
/-
  Memory unit 0 (256 channels): what the kernel's body computes in one block of 256 feature rows, read entry by entry.

  The body holds the block `x0` (256 rows of the features) and the whole memory `x1` (1024 rows). Its two matrix products run into a
  zero accumulator on operands whose change of float format is the identity on the extended reals, so each is the plain sum of
  products over the contracted axis: lanes against lanes for the similarities, the weights' lanes against the memory's rows for the
  read. Each lane reduction is kept as a column and spread back, which reads as the row's sum (or maximum). Entry by entry the
  stored weights are therefore `MemUnit.weight` of the entry's feature row and the memory, and the stored read is `MemUnit.read`.
-/
import proofs.«148232_j41257455845951_1_alg».proof.Proof.Gen.KernelIdeal.Skeleton
import proofs.«148232_j41257455845951_1_alg».proof.Proof.MemUnit
import proofs.«148232_j41257455845951_1_alg».proof.Proof.LibRowOps
import Idealize.ShloMosaic.Lib.ValueIdx
import Idealize.ShloMosaic.Lib.Pipeline.Value
import Idealize.ShloMosaic.PureOps.Ideal.Laws

noncomputable section

open scoped BigOperators

namespace Cert.KernelIdeal.Unit0

open Cert.KernelIdeal Cert.KernelIdeal.Gen Idealize.ShloMosaic Idealize.ShloMosaic.ValueIdx Cert.MemUnit Cert.RowOps

/-! ## The similarity product: lanes of the feature block against lanes of the memory -/

theorem simL0 (i : S256x1024.Idx) (q : dot_S256x256_S1024x256_S256x1024_1_1_0_0_n_n.contr.Idx) :
    (dot_S256x256_S1024x256_S256x1024_1_1_0_0_n_n.lhsIdx i q 0).val = (i 0).val := by
  unfold DotDims.lhsIdx
  rw [dif_neg (show ¬(0 : Fin S256x256.rank) ∈ dot_S256x256_S1024x256_S256x1024_1_1_0_0_n_n.lhsBatch by decide), dif_pos (show (0 : Fin S256x256.rank) ∈ dot_S256x256_S1024x256_S256x1024_1_1_0_0_n_n.lhsNonContracting by decide)]
  rfl
theorem simL1 (i : S256x1024.Idx) (q : dot_S256x256_S1024x256_S256x1024_1_1_0_0_n_n.contr.Idx) :
    (dot_S256x256_S1024x256_S256x1024_1_1_0_0_n_n.lhsIdx i q 1).val = (q ⟨0, by decide⟩).val :=
  dot_S256x256_S1024x256_S256x1024_1_1_0_0_n_n.lhsIdx_val_of_single rfl i q
theorem simR0 (i : S256x1024.Idx) (q : dot_S256x256_S1024x256_S256x1024_1_1_0_0_n_n.contr.Idx) :
    (dot_S256x256_S1024x256_S256x1024_1_1_0_0_n_n.rhsIdx i q 0).val = (i 1).val := by
  unfold DotDims.rhsIdx
  rw [dif_neg (show ¬(0 : Fin S1024x256.rank) ∈ dot_S256x256_S1024x256_S256x1024_1_1_0_0_n_n.rhsBatch by decide), dif_pos (show (0 : Fin S1024x256.rank) ∈ dot_S256x256_S1024x256_S256x1024_1_1_0_0_n_n.rhsNonContracting by decide)]
  rfl
theorem simR1 (i : S256x1024.Idx) (q : dot_S256x256_S1024x256_S256x1024_1_1_0_0_n_n.contr.Idx) :
    (dot_S256x256_S1024x256_S256x1024_1_1_0_0_n_n.rhsIdx i q 1).val = (q ⟨0, by decide⟩).val :=
  dot_S256x256_S1024x256_S256x1024_1_1_0_0_n_n.rhsIdx_val_of_single rfl i q

/-- Into the zero accumulator, entry `(p, j)` of the similarity product is the inner product of row `p` of the left operand and row
    `j` of the right. -/
theorem simProd_apply (l : FVec Ideal S256x256 .bf16) (r : FVec Ideal S1024x256 .bf16) (p : Fin 256) (j : Fin 1024) :
    matmul dot_S256x256_S1024x256_S256x1024_1_1_0_0_n_n none l r (constant S256x1024 .f32 0x00000000#32) (ix2 p j)
      = ∑ k : Fin 256, l (ix2 p k) * r (ix2 j k) := by
  simp only [matmul]
  rw [Ideal.matmul_constant_zero_apply, ← Equiv.sum_comp (contrEquiv1 dot_S256x256_S1024x256_S256x1024_1_1_0_0_n_n 256 rfl rfl).symm]
  refine Finset.sum_congr rfl fun k _ => ?_
  have hk := contrEquiv1_symm_val dot_S256x256_S1024x256_S256x1024_1_1_0_0_n_n 256 rfl rfl k
  have el : dot_S256x256_S1024x256_S256x1024_1_1_0_0_n_n.lhsIdx (ix2 p j) ((contrEquiv1 dot_S256x256_S1024x256_S256x1024_1_1_0_0_n_n 256 rfl rfl).symm k) = ix2 p k := funext fun a => Fin.ext (by
    match a with
    | ⟨0, _⟩ => exact simL0 _ _
    | ⟨1, _⟩ => exact (simL1 _ _).trans hk)
  have er : dot_S256x256_S1024x256_S256x1024_1_1_0_0_n_n.rhsIdx (ix2 p j) ((contrEquiv1 dot_S256x256_S1024x256_S256x1024_1_1_0_0_n_n 256 rfl rfl).symm k) = ix2 j k := funext fun a => Fin.ext (by
    match a with
    | ⟨0, _⟩ => exact simR0 _ _
    | ⟨1, _⟩ => exact (simR1 _ _).trans hk)
  rw [el, er]

/-! ## The read product: lanes of the weights against rows of the memory -/

theorem readL0 (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
theorem readL1 (i : S256x256.Idx) (q : dot_S256x1024_S1024x256_S256x256_1_0_0_1_n_n.contr.Idx) :
    (dot_S256x1024_S1024x256_S256x256_1_0_0_1_n_n.lhsIdx i q 1).val = (q ⟨0, by decide⟩).val :=
  dot_S256x1024_S1024x256_S256x256_1_0_0_1_n_n.lhsIdx_val_of_single rfl i q
theorem readR0 (i : S256x256.Idx) (q : dot_S256x1024_S1024x256_S256x256_1_0_0_1_n_n.contr.Idx) :
    (dot_S256x1024_S1024x256_S256x256_1_0_0_1_n_n.rhsIdx i q 0).val = (q ⟨0, by decide⟩).val :=
  dot_S256x1024_S1024x256_S256x256_1_0_0_1_n_n.rhsIdx_val_of_single rfl i q
theorem readR1 (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl

/-- Into the zero accumulator, entry `(p, k)` of the read product is the sum over the memory slots `j` of the left operand at `(p, j)`
    times the right at `(j, k)`. -/
theorem readProd_apply (l : FVec Ideal S256x1024 .bf16) (r : FVec Ideal S1024x256 .bf16) (p : Fin 256) (k : Fin 256) :
    matmul dot_S256x1024_S1024x256_S256x256_1_0_0_1_n_n none l r (constant S256x256 .f32 0x00000000#32) (ix2 p k)
      = ∑ j : Fin 1024, l (ix2 p j) * r (ix2 j k) := by
  simp only [matmul]
  rw [Ideal.matmul_constant_zero_apply, ← Equiv.sum_comp (contrEquiv1 dot_S256x1024_S1024x256_S256x256_1_0_0_1_n_n 1024 rfl rfl).symm]
  refine Finset.sum_congr rfl fun j _ => ?_
  have hj := contrEquiv1_symm_val dot_S256x1024_S1024x256_S256x256_1_0_0_1_n_n 1024 rfl rfl j
  have el : dot_S256x1024_S1024x256_S256x256_1_0_0_1_n_n.lhsIdx (ix2 p k) ((contrEquiv1 dot_S256x1024_S1024x256_S256x256_1_0_0_1_n_n 1024 rfl rfl).symm j) = ix2 p j := funext fun a => Fin.ext (by
    match a with
    | ⟨0, _⟩ => exact readL0 _ _
    | ⟨1, _⟩ => exact (readL1 _ _).trans hj)
  have er : dot_S256x1024_S1024x256_S256x256_1_0_0_1_n_n.rhsIdx (ix2 p k) ((contrEquiv1 dot_S256x1024_S1024x256_S256x256_1_0_0_1_n_n 1024 rfl rfl).symm j) = ix2 j k := funext fun a => Fin.ext (by
    match a with
    | ⟨0, _⟩ => exact (readR0 _ _).trans hj
    | ⟨1, _⟩ => exact readR1 _ _)
  rw [el, er]

/-! ## The lane reductions at this unit's shapes -/

/-- A feature block's lane sum at row `p`. -/
theorem featSum_apply (v : FVec Ideal S256x256 .f32) (h : S256x256.Reduces [1] S256) (hφ : FTy.f32 = FTy.f32 ∨ FTy.f32 = FTy.bf16)
    (hacc : (0x00000000#32 : BitVec 32) = 0x00000000#32) (p : Fin 256) :
    multiReduction .add [1] S256 v 0x00000000#32 h hφ hacc (ix1 p) = ∑ k : Fin 256, v (ix2 p k) :=
  laneSum_apply (R := 256) (C := 256) v 0x00000000#32 h hφ hacc p

/-- The memory's lane sum at row `j`. -/
theorem memSum_apply (v : FVec Ideal S1024x256 .f32) (h : S1024x256.Reduces [1] S1024) (hφ : FTy.f32 = FTy.f32 ∨ FTy.f32 = FTy.bf16)
    (hacc : (0x00000000#32 : BitVec 32) = 0x00000000#32) (j : Fin 1024) :
    multiReduction .add [1] S1024 v 0x00000000#32 h hφ hacc (ix1 j) = ∑ k : Fin 256, v (ix2 j k) :=
  laneSum_apply (R := 1024) (C := 256) v 0x00000000#32 h hφ hacc j

/-- A weight block's lane sum at row `p`. -/
theorem slotSum_apply (v : FVec Ideal S256x1024 .f32) (h : S256x1024.Reduces [1] S256) (hφ : FTy.f32 = FTy.f32 ∨ FTy.f32 = FTy.bf16)
    (hacc : (0x00000000#32 : BitVec 32) = 0x00000000#32) (p : Fin 256) :
    multiReduction .add [1] S256 v 0x00000000#32 h hφ hacc (ix1 p) = ∑ j : Fin 1024, v (ix2 p j) :=
  laneSum_apply (R := 256) (C := 1024) v 0x00000000#32 h hφ hacc p

/-- A weight block's lane maximum from the word `acc` at row `p`. -/
theorem slotMax_apply (v : FVec Ideal S256x1024 .f32) (h : S256x1024.Reduces [1] S256) (hφ : FTy.f32 = FTy.f32 ∨ FTy.f32 = FTy.bf16)
    (hacc : (0xFF800000#32 : BitVec 32) = 0xFF800000#32) (p : Fin 256) :
    multiReduction .maximumf [1] S256 v 0xFF800000#32 h hφ hacc (ix1 p)
      = (Finset.univ : Finset (Fin 1024)).fold max bottomW (fun j => v (ix2 p j)) :=
  laneMax_apply (R := 256) (C := 1024) v 0xFF800000#32 h hφ hacc p

/-! ## The body's stages, each for any operands whose entries are known -/

/-- The floored length of row `p` of a feature block, kept as a column. -/
theorem featLen_apply (x : FVec Ideal S256x256 .f32) (h : S256x256.Reduces [1] S256) (hφ : FTy.f32 = FTy.f32 ∨ FTy.f32 = FTy.bf16)
    (hacc : (0x00000000#32 : BitVec 32) = 0x00000000#32) (hc : S256.ShapeCasts S256x1) (p : Fin 256) (q : Fin 1) :
    maximumf (sqrt (shapeCast S256x1 (multiReduction .add [1] S256 (mulf x x) 0x00000000#32 h hφ hacc) hc))
        (broadcast S256x1 (Scalar.ofBits .f32 0x2B8CBCCC#32)) (ix2 p q)
      = len (fun k => x (ix2 p k)) := by
  rw [maximumf_apply, sqrt_apply, castCol_apply, featSum_apply, broadcast_apply]
  rfl

/-- Row `p` of a feature block scaled to unit length. -/
theorem featUnit_apply (x : FVec Ideal S256x256 .f32) (h : S256x256.Reduces [1] S256) (hφ : FTy.f32 = FTy.f32 ∨ FTy.f32 = FTy.bf16)
    (hacc : (0x00000000#32 : BitVec 32) = 0x00000000#32) (hc : S256.ShapeCasts S256x1) (hb : S256x1.Broadcasts S256x256) (p : Fin 256) (k : Fin 256) :
    divf x (broadcastTo S256x256 (maximumf (sqrt (shapeCast S256x1 (multiReduction .add [1] S256 (mulf x x) 0x00000000#32 h hφ hacc) hc))
        (broadcast S256x1 (Scalar.ofBits .f32 0x2B8CBCCC#32))) hb) (ix2 p k)
      = unit (fun k => x (ix2 p k)) k := by
  rw [divf_apply, spreadCol_apply, featLen_apply]
  rfl

/-- The floored length of memory row `j`, kept as a column. -/
theorem memLen_apply (y : FVec Ideal S1024x256 .f32) (h : S1024x256.Reduces [1] S1024) (hφ : FTy.f32 = FTy.f32 ∨ FTy.f32 = FTy.bf16)
    (hacc : (0x00000000#32 : BitVec 32) = 0x00000000#32) (hc : S1024.ShapeCasts S1024x1) (j : Fin 1024) (q : Fin 1) :
    maximumf (sqrt (shapeCast S1024x1 (multiReduction .add [1] S1024 (mulf y y) 0x00000000#32 h hφ hacc) hc))
        (broadcast S1024x1 (Scalar.ofBits .f32 0x2B8CBCCC#32)) (ix2 j q)
      = len (fun k => y (ix2 j k)) := by
  rw [maximumf_apply, sqrt_apply, castCol_apply, memSum_apply, broadcast_apply]
  rfl

/-- Memory row `j` scaled to unit length. -/
theorem memUnit_apply (y : FVec Ideal S1024x256 .f32) (h : S1024x256.Reduces [1] S1024) (hφ : FTy.f32 = FTy.f32 ∨ FTy.f32 = FTy.bf16)
    (hacc : (0x00000000#32 : BitVec 32) = 0x00000000#32) (hc : S1024.ShapeCasts S1024x1) (hb : S1024x1.Broadcasts S1024x256) (j : Fin 1024) (k : Fin 256) :
    divf y (broadcastTo S1024x256 (maximumf (sqrt (shapeCast S1024x1 (multiReduction .add [1] S1024 (mulf y y) 0x00000000#32 h hφ hacc) hc))
        (broadcast S1024x1 (Scalar.ofBits .f32 0x2B8CBCCC#32))) hb) (ix2 j k)
      = unit (fun k => y (ix2 j k)) k := by
  rw [divf_apply, spreadCol_apply, memLen_apply]
  rfl

/-- The similarity product of two operands whose rows are known. -/
theorem simOf_apply (u : FVec Ideal S256x256 .f32) (w : FVec Ideal S1024x256 .f32) (p : Fin 256) (j : Fin 1024)
    (U : Fin 256 → EReal) (W : Fin 256 → EReal) (hu : ∀ k, u (ix2 p k) = U k) (hw : ∀ k, w (ix2 j k) = W k) :
    matmul dot_S256x256_S1024x256_S256x1024_1_1_0_0_n_n none (truncf .bf16 u bitsLt_bf16_f32) (truncf .bf16 w bitsLt_bf16_f32)
        (constant S256x1024 .f32 0x00000000#32) (ix2 p j)
      = ∑ k : Fin 256, U k * W k := by
  rw [simProd_apply]
  exact Finset.sum_congr rfl fun k _ => by rw [truncf_apply, truncf_apply, hu k, hw k]

/-- The maximum of row `p` of a block of similarities, spread back over the row. -/
theorem topOf_apply (s : FVec Ideal S256x1024 .f32) (h : S256x1024.Reduces [1] S256) (hφ : FTy.f32 = FTy.f32 ∨ FTy.f32 = FTy.bf16)
    (hm : (0xFF800000#32 : BitVec 32) = 0xFF800000#32) (hc : S256.ShapeCasts S256x1) (hb : S256x1.Broadcasts S256x1024)
    (p : Fin 256) (j : Fin 1024) (S : Fin 1024 → EReal) (hs : ∀ j, s (ix2 p j) = S j) :
    broadcastTo S256x1024 (shapeCast S256x1 (multiReduction .maximumf [1] S256 s 0xFF800000#32 h hφ hm) hc) hb (ix2 p j) = top S := by
  rw [spreadCol_apply, castCol_apply, slotMax_apply, funext hs]
  rfl

/-- The shifted exponentials of row `p`. -/
theorem exOf_apply (s m : FVec Ideal S256x1024 .f32) (p : Fin 256) (j : Fin 1024) (S : Fin 1024 → EReal) (hs : ∀ j, s (ix2 p j) = S j)
    (hm : ∀ j, m (ix2 p j) = top S) : exp (subf s m) (ix2 p j) = ex S j := by
  rw [exp_apply, subf_apply, hs, hm]
  rfl

/-- A row divided by its sum. -/
theorem softOf_apply (e : FVec Ideal S256x1024 .f32) (h : S256x1024.Reduces [1] S256) (hφ : FTy.f32 = FTy.f32 ∨ FTy.f32 = FTy.bf16)
    (ha : (0x00000000#32 : BitVec 32) = 0x00000000#32) (hc : S256.ShapeCasts S256x1) (hb : S256x1.Broadcasts S256x1024)
    (p : Fin 256) (j : Fin 1024) (S : Fin 1024 → EReal) (he : ∀ j, e (ix2 p j) = ex S j) :
    divf e (broadcastTo S256x1024 (shapeCast S256x1 (multiReduction .add [1] S256 e 0x00000000#32 h hφ ha) hc) hb) (ix2 p j) = soft S j := by
  rw [divf_apply, spreadCol_apply, castCol_apply, slotSum_apply, he]
  exact congrArg (Ideal.div (ex S j)) (Finset.sum_congr rfl fun j' _ => he j')

/-- One weight shrunk towards zero. -/
theorem shrinkOf_apply (w : FVec Ideal S256x1024 .f32) (p : Fin 256) (j : Fin 1024) (W : EReal) (hw : w (ix2 p j) = W) :
    divf (mulf (maximumf (subf w (broadcast S256x1024 (Scalar.ofBits .f32 0x3B23D70A#32))) (broadcast S256x1024 (Scalar.ofBits .f32 0x00000000#32))) w)
        (addf (absf (subf w (broadcast S256x1024 (Scalar.ofBits .f32 0x3B23D70A#32)))) (broadcast S256x1024 (Scalar.ofBits .f32 0x2B8CBCCC#32)))
        (ix2 p j)
      = shrink W := by
  rw [divf_apply, mulf_apply, maximumf_apply, subf_apply, addf_apply, absf_apply, subf_apply, broadcast_apply, broadcast_apply, broadcast_apply, hw]
  rfl

/-! ## The body's values, entry by entry -/

/-- The shrunk softmax weight the body holds at row `p`, slot `j`, before the rows are scaled. -/
theorem raw_apply (x0 : Vec Ideal S256x256 .f32) (x1 : Vec Ideal S1024x256 .f32) (p : Fin 256) (j : Fin 1024) :
    k0_pay3 x0 x1 (ix2 p j) = raw (fun k => x0 (ix2 p k)) (fun j k => x1 (ix2 j k)) j := by
  unfold k0_pay3
  exact shrinkOf_apply _ p j _ (softOf_apply _ _ _ _ _ _ p j _ fun j' =>
    exOf_apply _ _ p j' _
      (fun j₂ => simOf_apply _ _ p j₂ _ _ (fun k => featUnit_apply x0 _ _ _ _ _ p k) (fun k => memUnit_apply x1 _ _ _ _ _ j₂ k))
      (fun j'' => topOf_apply _ _ _ _ _ _ p j'' _
        (fun j₂ => simOf_apply _ _ p j₂ _ _ (fun k => featUnit_apply x0 _ _ _ _ _ p k) (fun k => memUnit_apply x1 _ _ _ _ _ j₂ k))))

/-- The absolute sum of row `p`'s shrunk weights. -/
theorem rawSum_apply (x0 : Vec Ideal S256x256 .f32) (x1 : Vec Ideal S1024x256 .f32) (p : Fin 256) :
    k0_pay4 x0 x1 (ix1 p) = ∑ j : Fin 1024, abs' (raw (fun k => x0 (ix2 p k)) (fun j k => x1 (ix2 j k)) j) := by
  unfold k0_pay4
  rw [slotSum_apply]
  exact Finset.sum_congr rfl fun j _ => by rw [absf_apply, raw_apply]

/-- Scaling by the floored row sums, for any weights and sums. -/
theorem scaled_apply (v40 : FVec Ideal S256x1024 .f32) (v42 : FVec Ideal S256 .f32) (p : Fin 256) (j : Fin 1024) :
    k0_pay1 v40 v42 (ix2 p j) = Ideal.div (v40 (ix2 p j)) (max (v42 (ix1 p)) floorW) := by
  unfold k0_pay1
  rw [divf_apply, spreadCol_apply, maximumf_apply, castCol_apply, broadcast_apply]
  rfl

/-- The weights the body stores: entry `(p, j)` is the unit's weight of row `p` of the block for slot `j`. -/
theorem weight_apply (x0 : Vec Ideal S256x256 .f32) (x1 : Vec Ideal S1024x256 .f32) (p : Fin 256) (j : Fin 1024) :
    k0_pay1 (k0_pay3 x0 x1) (k0_pay4 x0 x1) (ix2 p j) = weight (fun k => x0 (ix2 p k)) (fun j k => x1 (ix2 j k)) j := by
  rw [scaled_apply, raw_apply, rawSum_apply]
  rfl

/-- The read the body stores: entry `(p, k)` is the unit's memory read of row `p` of the block at channel `k`. -/
theorem read_apply (x0 : Vec Ideal S256x256 .f32) (x1 : Vec Ideal S1024x256 .f32) (p : Fin 256) (k : Fin 256) :
    k0_pay2 x1 (k0_pay3 x0 x1) (k0_pay4 x0 x1) (ix2 p k) = read (fun k => x0 (ix2 p k)) (fun j k => x1 (ix2 j k)) k := by
  unfold k0_pay2
  rw [readProd_apply]
  exact Finset.sum_congr rfl fun j _ => by rw [truncf_apply, truncf_apply, weight_apply]

end Cert.KernelIdeal.Unit0

end
-- ==== Proof.Unit0Array.lean ====
/-
  Memory unit 0 (256 channels): the kernel's two result arrays after its 64 grid points.

  Point `t` of the grid holds rows 256 t … 256 t + 255 of the features and the whole memory, and writes back the same rows of both
  results. What it writes is, entry by entry, the unit's function of the feature row behind the entry (row `p` of the block is row
  `256 t + p` of the array) and of the memory: the weights in one window; in the other the read in the first 256 channels (the
  store at column 0) and the feature block itself in the last 256 (the store at column 256). Every row of a result lies in exactly one
  point's block, so after the run each result array is the unit's whole-array function of the feature and memory arrays as the
  region found them.
-/
import proofs.«148232_j41257455845951_1_alg».proof.Proof.Gen.KernelIdeal.Frame
import proofs.«148232_j41257455845951_1_alg».proof.Proof.Unit0Body
import proofs.«148232_j41257455845951_1_alg».proof.Proof.MemUnit
import Idealize.ShloMosaic.Lib.Pipeline.Value
import Idealize.ShloMosaic.Lib.ValueIdx

set_option maxRecDepth 16384

noncomputable section

namespace Cert.KernelIdeal.Unit0

open Cert.KernelIdeal Cert.KernelIdeal.Gen Idealize.ShloMosaic Idealize.ShloMosaic.TcCoe Idealize.ShloMosaic.ValueIdx Idealize.SL.Sem Cert.MemUnit
open Idealize.ShloMosaic.Pipeline (Dat Cfg Window)

variable (V : (c : Dev nD) → (b : Ref sig .tc) → Buf (Elt Ideal) ((c : Thread nD τ).loc b))

/-- The feature array and the memory array as the region finds them. -/
abbrev featArr (c : Dev nD) : S16384x256.Idx → EReal := V c main_arg0
abbrev memArr (c : Dev nD) : S1024x256.Idx → EReal := V c main_arg3

theorem hz : (![0, 0] : Fin 2 → Nat) = fun _ => 0 := funext fun a => by fin_cases a <;> rfl

/-- The printed index maps over the grid: the feature window and both result windows move one block of rows per point, the memory
    window stays, and no window moves along the channels. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry `(p, k)` of point `t`'s feature block is entry `(256 t + p, k)` of the feature array. -/
theorem featBlock (c : Dev nD) (t : Fin cfg0.N) (p : Fin 256) (k : Fin 256) (r : Fin 16384) (hr : r.val = t.val * 256 + p.val) :
    iblk0 V c 0 t (ix2 p k) = featArr V c (ix2 r k) := by
  obtain ⟨e0, e1, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 256 + 1 * p.val = r.val; omega
  | ⟨1, _⟩ => show win0_0.index t (1 : Fin 2) * 256 + 1 * k.val = k.val; omega

/-- Every point's memory block is the whole memory array. -/
theorem memBlock (c : Dev nD) (t : Fin cfg0.N) (j : Fin 1024) (k : Fin 256) :
    iblk0 V c 1 t (ix2 j k) = memArr V c (ix2 j k) := by
  obtain ⟨-, -, e2, e3, -⟩ := idx_facts t
  show V c main_arg3 (((cfg0.win 1).blk t).view.emb (ix2 j k)) = V c main_arg3 (ix2 j k)
  refine congrArg (V c main_arg3) (funext fun a => Fin.ext ?_)
  match a with
  | ⟨0, _⟩ => show win0_1.index t (0 : Fin 2) * 1024 + 1 * j.val = j.val; omega
  | ⟨1, _⟩ => show win0_1.index t (1 : Fin 2) * 256 + 1 * k.val = k.val; omega

/-- Row `p` of point `t`'s feature block is row `256 t + p` of the feature array; the memory block's rows are the memory's. -/
theorem featRow (c : Dev nD) (t : Fin cfg0.N) (p : Fin 256) (r : Fin 16384) (hr : r.val = t.val * 256 + p.val) :
    (fun k : Fin 256 => iblk0 V c 0 t (ix2 p k)) = rowOf (featArr V c) r := funext fun k => featBlock V c t p k r hr
theorem memRows (c : Dev nD) (t : Fin cfg0.N) :
    (fun (j : Fin 1024) (k : Fin 256) => iblk0 V c 1 t (ix2 j k)) = rowsOf (memArr V c) := funext fun j => funext fun k => memBlock V c t j k

/-! ## The weights -/

/-- What point `t` writes back to the weights is block `t` of the unit's weights. -/
theorem flushedW_eq (c : Dev nD) (t : Fin cfg0.N) :
    (dat0 V c).flushed 3 t = ((cfg0.win 3).blk t).view.read (Elt Ideal) (weights (featArr V c) (memArr V c)) := by
  show (cfg0.win 3).cut (grid0.coords t) ((dat0 V c).after 3 t) = _
  rw [after0_3]
  unfold out0_3
  rw [View.canon_unit_zero hz]
  simp only [View.ld_unit_zero (S := S256x256) hz, View.ld_unit_zero (S := S1024x256) hz]
  funext y
  obtain ⟨p, j, rfl⟩ : ∃ (p : Fin 256) (j : Fin 1024), y = ix2 p j := ⟨y 0, y 1, eq_ix2 y⟩
  have ht : t.val < 64 := t.isLt
  have hp := p.isLt
  obtain ⟨-, -, -, -, -, -, e6, e7⟩ := idx_facts t
  refine (weight_apply (iblk0 V c 0 t) (iblk0 V c 1 t) p j).trans ?_
  rw [featRow V c t p ⟨t.val * 256 + p.val, by omega⟩ rfl, memRows V c t]
  exact (weights_at (featArr V c) (memArr V c) _ ⟨t.val * 256 + p.val, by omega⟩ j
    (by show win0_3.index t (0 : Fin 2) * 256 + 1 * p.val = t.val * 256 + p.val; omega)
    (by show win0_3.index t (1 : Fin 2) * 1024 + 1 * j.val = j.val; omega)).symm

/-- An index of the weights is in point `t`'s block iff each coordinate is in the block's range on its axis. -/
theorem mem_blkW (t : Fin cfg0.N) (i : S16384x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v0_1).slice (win0_3.rect t)).set ↔ _
  rw [View.set_slice_whole, Rect.mem_set_unit]
  exact Iff.rfl

/-- Every index of the weights is in the block of the point its row falls in. -/
theorem coverW (i : S16384x1024.Idx) : ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 64 := N_0
  refine ⟨⟨(i 0).val / 256, by rw [hN]; omega⟩, flush0_3 _, ?_⟩
  obtain ⟨-, -, -, -, -, -, e6, e7⟩ := idx_facts ⟨(i 0).val / 256, by rw [hN]; omega⟩
  rw [mem_blkW]
  intro a
  match a with
  | ⟨0, _⟩ => show win0_3.index _ (0 : Fin 2) * 256 ≤ (i 0).val ∧ (i 0).val < win0_3.index _ (0 : Fin 2) * 256 + 256; rw [e6]; show (i 0).val / 256 * 256 ≤ (i 0).val ∧ (i 0).val < (i 0).val / 256 * 256 + 256; omega
  | ⟨1, _⟩ => show win0_3.index _ (1 : Fin 2) * 1024 ≤ (i 1).val ∧ (i 1).val < win0_3.index _ (1 : Fin 2) * 1024 + 1024; rw [e7]; omega

/-- The weights array after the run. -/
theorem weights_arr (c : Dev nD) : (dat0 V c).arrAt 3 cfg0.N = weights (featArr V c) (memArr V c) :=
  (dat0 V c).arrAt_eq_of_cover 3 (weights (featArr V c) (memArr V c)) (fun t _ => flushedW_eq V c t) (coverW)

/-! ## The joined result -/

/-- What point `t` writes back to the joined result is block `t` of the unit's joined array: the store at column 256 holds the feature
    block, the store at column 0 the read. -/
theorem flushedJ_eq (c : Dev nD) (t : Fin cfg0.N) :
    (dat0 V c).flushed 2 t
      = ((cfg0.win 2).blk t).view.read (Elt Ideal) (joined (C := 256) (D := 512) rfl (featArr V c) (memArr V c)) := by
  show (cfg0.win 2).cut (grid0.coords t) ((dat0 V c).after 2 t) = _
  rw [after0_2]
  unfold out0_2
  simp only [View.ld_unit_zero (S := S256x256) hz, View.ld_unit_zero (S := S1024x256) hz]
  have ht : t.val < 64 := t.isLt
  obtain ⟨-, -, -, -, e4, e5, -⟩ := idx_facts t
  funext y
  refine View.canon_apply_of_pieces (Val := Elt Ideal)
    (fun y => joined (C := 256) (D := 512) rfl (featArr V c) (memArr V c) (((cfg0.win 2).blk t).view.emb y)) _ ?_ y (cover0_2 _ _ y)
  intro pc hpc x
  rcases List.mem_cons.mp hpc with rfl | hpc
  · obtain ⟨p, k, rfl⟩ : ∃ (p : Fin 256) (k : Fin 256), x = ix2 p k := ⟨x 0, x 1, eq_ix2 x⟩
    have hp := p.isLt
    have hk := k.isLt
    refine (featBlock V c t p k ⟨t.val * 256 + p.val, by omega⟩ rfl).trans ?_
    refine (joined_at_feat rfl (featArr V c) (memArr V c) _ ⟨t.val * 256 + p.val, by omega⟩ k ?_ ?_).symm
    · show win0_2.index t (0 : Fin 2) * 256 + 1 * (0 + 1 * p.val) = t.val * 256 + p.val; omega
    · show win0_2.index t (1 : Fin 2) * 512 + 1 * (256 + 1 * k.val) = 256 + k.val; omega
  · rcases List.mem_singleton.mp hpc with rfl
    obtain ⟨p, k, rfl⟩ : ∃ (p : Fin 256) (k : Fin 256), x = ix2 p k := ⟨x 0, x 1, eq_ix2 x⟩
    have hp := p.isLt
    have hk := k.isLt
    refine (read_apply (iblk0 V c 0 t) (iblk0 V c 1 t) p k).trans ?_
    rw [featRow V c t p ⟨t.val * 256 + p.val, by omega⟩ rfl, memRows V c t]
    refine (joined_at_read rfl (featArr V c) (memArr V c) _ ⟨t.val * 256 + p.val, by omega⟩ k ?_ ?_).symm
    · show win0_2.index t (0 : Fin 2) * 256 + 1 * (0 + 1 * p.val) = t.val * 256 + p.val; omega
    · show win0_2.index t (1 : Fin 2) * 512 + 1 * (0 + 1 * k.val) = k.val; omega

/-- An index of the joined result is in point `t`'s block iff each coordinate is in the block's range on its axis. -/
theorem mem_blkJ (t : Fin cfg0.N) (i : S16384x512.Idx) :
    i ∈ ((cfg0.win 2).blk t).view.set ↔ ∀ a : Fin 2, win0_2.index t a * S256x512.size a ≤ (i a).val ∧ (i a).val < win0_2.index t a * S256x512.size a + S256x512.size a := by
  show i ∈ ((View.whole main_v0_0).slice (win0_2.rect t)).set ↔ _
  rw [View.set_slice_whole, Rect.mem_set_unit]
  exact Iff.rfl

/-- Every index of the joined result is in the block of the point its row falls in. -/
theorem coverJ (i : S16384x512.Idx) : ∃ t : Fin cfg0.N, (cfg0.win 2).flush t = true ∧ i ∈ ((cfg0.win 2).blk t).view.set := by
  have hi0 : (i 0).val < 16384 := (i 0).isLt
  have hi1 : (i 1).val < 512 := (i 1).isLt
  have hN : cfg0.N = 64 := N_0
  refine ⟨⟨(i 0).val / 256, by rw [hN]; omega⟩, flush0_2 _, ?_⟩
  obtain ⟨-, -, -, -, e4, e5, -⟩ := idx_facts ⟨(i 0).val / 256, by rw [hN]; omega⟩
  rw [mem_blkJ]
  intro a
  match a with
  | ⟨0, _⟩ => show win0_2.index _ (0 : Fin 2) * 256 ≤ (i 0).val ∧ (i 0).val < win0_2.index _ (0 : Fin 2) * 256 + 256; rw [e4]; show (i 0).val / 256 * 256 ≤ (i 0).val ∧ (i 0).val < (i 0).val / 256 * 256 + 256; omega
  | ⟨1, _⟩ => show win0_2.index _ (1 : Fin 2) * 512 ≤ (i 1).val ∧ (i 1).val < win0_2.index _ (1 : Fin 2) * 512 + 512; rw [e5]; omega

/-- The joined array after the run. -/
theorem joined_arr (c : Dev nD) : (dat0 V c).arrAt 2 cfg0.N = joined (C := 256) (D := 512) rfl (featArr V c) (memArr V c) :=
  (dat0 V c).arrAt_eq_of_cover 2 (joined (C := 256) (D := 512) rfl (featArr V c) (memArr V c)) (fun t _ => flushedJ_eq V c t) (coverJ)

end Cert.KernelIdeal.Unit0

end
-- ==== Proof.Unit1Body.lean ====
/-
  Memory unit 1 (512 channels): what the kernel's body computes in one block of 256 feature rows, read entry by entry.

  The body holds the block `x0` (256 rows of the features) and the whole memory `x1` (1024 rows). Its two matrix products run into a
  zero accumulator on operands whose change of float format is the identity on the extended reals, so each is the plain sum of
  products over the contracted axis: lanes against lanes for the similarities, the weights' lanes against the memory's rows for the
  read. Each lane reduction is kept as a column and spread back, which reads as the row's sum (or maximum). Entry by entry the
  stored weights are therefore `MemUnit.weight` of the entry's feature row and the memory, and the stored read is `MemUnit.read`.
-/
import proofs.«148232_j41257455845951_1_alg».proof.Proof.Gen.KernelIdeal.Skeleton
import proofs.«148232_j41257455845951_1_alg».proof.Proof.MemUnit
import proofs.«148232_j41257455845951_1_alg».proof.Proof.LibRowOps
import Idealize.ShloMosaic.Lib.ValueIdx
import Idealize.ShloMosaic.Lib.Pipeline.Value
import Idealize.ShloMosaic.PureOps.Ideal.Laws

noncomputable section

open scoped BigOperators

namespace Cert.KernelIdeal.Unit1

open Cert.KernelIdeal Cert.KernelIdeal.Gen Idealize.ShloMosaic Idealize.ShloMosaic.ValueIdx Cert.MemUnit Cert.RowOps

/-! ## The similarity product: lanes of the feature block against lanes of the memory -/

theorem simL0 (i : S256x1024.Idx) (q : dot_S256x512_S1024x512_S256x1024_1_1_0_0_n_n.contr.Idx) :
    (dot_S256x512_S1024x512_S256x1024_1_1_0_0_n_n.lhsIdx i q 0).val = (i 0).val := by
  unfold DotDims.lhsIdx
  rw [dif_neg (show ¬(0 : Fin S256x512.rank) ∈ dot_S256x512_S1024x512_S256x1024_1_1_0_0_n_n.lhsBatch by decide), dif_pos (show (0 : Fin S256x512.rank) ∈ dot_S256x512_S1024x512_S256x1024_1_1_0_0_n_n.lhsNonContracting by decide)]
  rfl
theorem simL1 (i : S256x1024.Idx) (q : dot_S256x512_S1024x512_S256x1024_1_1_0_0_n_n.contr.Idx) :
    (dot_S256x512_S1024x512_S256x1024_1_1_0_0_n_n.lhsIdx i q 1).val = (q ⟨0, by decide⟩).val :=
  dot_S256x512_S1024x512_S256x1024_1_1_0_0_n_n.lhsIdx_val_of_single rfl i q
theorem simR0 (i : S256x1024.Idx) (q : dot_S256x512_S1024x512_S256x1024_1_1_0_0_n_n.contr.Idx) :
    (dot_S256x512_S1024x512_S256x1024_1_1_0_0_n_n.rhsIdx i q 0).val = (i 1).val := by
  unfold DotDims.rhsIdx
  rw [dif_neg (show ¬(0 : Fin S1024x512.rank) ∈ dot_S256x512_S1024x512_S256x1024_1_1_0_0_n_n.rhsBatch by decide), dif_pos (show (0 : Fin S1024x512.rank) ∈ dot_S256x512_S1024x512_S256x1024_1_1_0_0_n_n.rhsNonContracting by decide)]
  rfl
theorem simR1 (i : S256x1024.Idx) (q : dot_S256x512_S1024x512_S256x1024_1_1_0_0_n_n.contr.Idx) :
    (dot_S256x512_S1024x512_S256x1024_1_1_0_0_n_n.rhsIdx i q 1).val = (q ⟨0, by decide⟩).val :=
  dot_S256x512_S1024x512_S256x1024_1_1_0_0_n_n.rhsIdx_val_of_single rfl i q

/-- Into the zero accumulator, entry `(p, j)` of the similarity product is the inner product of row `p` of the left operand and row
    `j` of the right. -/
theorem simProd_apply (l : FVec Ideal S256x512 .bf16) (r : FVec Ideal S1024x512 .bf16) (p : Fin 256) (j : Fin 1024) :
    matmul dot_S256x512_S1024x512_S256x1024_1_1_0_0_n_n none l r (constant S256x1024 .f32 0x00000000#32) (ix2 p j)
      = ∑ k : Fin 512, l (ix2 p k) * r (ix2 j k) := by
  simp only [matmul]
  rw [Ideal.matmul_constant_zero_apply, ← Equiv.sum_comp (contrEquiv1 dot_S256x512_S1024x512_S256x1024_1_1_0_0_n_n 512 rfl rfl).symm]
  refine Finset.sum_congr rfl fun k _ => ?_
  have hk := contrEquiv1_symm_val dot_S256x512_S1024x512_S256x1024_1_1_0_0_n_n 512 rfl rfl k
  have el : dot_S256x512_S1024x512_S256x1024_1_1_0_0_n_n.lhsIdx (ix2 p j) ((contrEquiv1 dot_S256x512_S1024x512_S256x1024_1_1_0_0_n_n 512 rfl rfl).symm k) = ix2 p k := funext fun a => Fin.ext (by
    match a with
    | ⟨0, _⟩ => exact simL0 _ _
    | ⟨1, _⟩ => exact (simL1 _ _).trans hk)
  have er : dot_S256x512_S1024x512_S256x1024_1_1_0_0_n_n.rhsIdx (ix2 p j) ((contrEquiv1 dot_S256x512_S1024x512_S256x1024_1_1_0_0_n_n 512 rfl rfl).symm k) = ix2 j k := funext fun a => Fin.ext (by
    match a with
    | ⟨0, _⟩ => exact simR0 _ _
    | ⟨1, _⟩ => exact (simR1 _ _).trans hk)
  rw [el, er]

/-! ## The read product: lanes of the weights against rows of the memory -/

theorem readL0 (i : S256x512.Idx) (q : dot_S256x1024_S1024x512_S256x512_1_0_0_1_n_n.contr.Idx) :
    (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
theorem readL1 (i : S256x512.Idx) (q : dot_S256x1024_S1024x512_S256x512_1_0_0_1_n_n.contr.Idx) :
    (dot_S256x1024_S1024x512_S256x512_1_0_0_1_n_n.lhsIdx i q 1).val = (q ⟨0, by decide⟩).val :=
  dot_S256x1024_S1024x512_S256x512_1_0_0_1_n_n.lhsIdx_val_of_single rfl i q
theorem readR0 (i : S256x512.Idx) (q : dot_S256x1024_S1024x512_S256x512_1_0_0_1_n_n.contr.Idx) :
    (dot_S256x1024_S1024x512_S256x512_1_0_0_1_n_n.rhsIdx i q 0).val = (q ⟨0, by decide⟩).val :=
  dot_S256x1024_S1024x512_S256x512_1_0_0_1_n_n.rhsIdx_val_of_single rfl i q
theorem readR1 (i : S256x512.Idx) (q : dot_S256x1024_S1024x512_S256x512_1_0_0_1_n_n.contr.Idx) :
    (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl

/-- Into the zero accumulator, entry `(p, k)` of the read product is the sum over the memory slots `j` of the left operand at `(p, j)`
    times the right at `(j, k)`. -/
theorem readProd_apply (l : FVec Ideal S256x1024 .bf16) (r : FVec Ideal S1024x512 .bf16) (p : Fin 256) (k : Fin 512) :
    matmul dot_S256x1024_S1024x512_S256x512_1_0_0_1_n_n none l r (constant S256x512 .f32 0x00000000#32) (ix2 p k)
      = ∑ j : Fin 1024, l (ix2 p j) * r (ix2 j k) := by
  simp only [matmul]
  rw [Ideal.matmul_constant_zero_apply, ← Equiv.sum_comp (contrEquiv1 dot_S256x1024_S1024x512_S256x512_1_0_0_1_n_n 1024 rfl rfl).symm]
  refine Finset.sum_congr rfl fun j _ => ?_
  have hj := contrEquiv1_symm_val dot_S256x1024_S1024x512_S256x512_1_0_0_1_n_n 1024 rfl rfl j
  have el : dot_S256x1024_S1024x512_S256x512_1_0_0_1_n_n.lhsIdx (ix2 p k) ((contrEquiv1 dot_S256x1024_S1024x512_S256x512_1_0_0_1_n_n 1024 rfl rfl).symm j) = ix2 p j := funext fun a => Fin.ext (by
    match a with
    | ⟨0, _⟩ => exact readL0 _ _
    | ⟨1, _⟩ => exact (readL1 _ _).trans hj)
  have er : dot_S256x1024_S1024x512_S256x512_1_0_0_1_n_n.rhsIdx (ix2 p k) ((contrEquiv1 dot_S256x1024_S1024x512_S256x512_1_0_0_1_n_n 1024 rfl rfl).symm j) = ix2 j k := funext fun a => Fin.ext (by
    match a with
    | ⟨0, _⟩ => exact (readR0 _ _).trans hj
    | ⟨1, _⟩ => exact readR1 _ _)
  rw [el, er]

/-! ## The lane reductions at this unit's shapes -/

/-- A feature block's lane sum at row `p`. -/
theorem featSum_apply (v : FVec Ideal S256x512 .f32) (h : S256x512.Reduces [1] S256) (hφ : FTy.f32 = FTy.f32 ∨ FTy.f32 = FTy.bf16)
    (hacc : (0x00000000#32 : BitVec 32) = 0x00000000#32) (p : Fin 256) :
    multiReduction .add [1] S256 v 0x00000000#32 h hφ hacc (ix1 p) = ∑ k : Fin 512, v (ix2 p k) :=
  laneSum_apply (R := 256) (C := 512) v 0x00000000#32 h hφ hacc p

/-- The memory's lane sum at row `j`. -/
theorem memSum_apply (v : FVec Ideal S1024x512 .f32) (h : S1024x512.Reduces [1] S1024) (hφ : FTy.f32 = FTy.f32 ∨ FTy.f32 = FTy.bf16)
    (hacc : (0x00000000#32 : BitVec 32) = 0x00000000#32) (j : Fin 1024) :
    multiReduction .add [1] S1024 v 0x00000000#32 h hφ hacc (ix1 j) = ∑ k : Fin 512, v (ix2 j k) :=
  laneSum_apply (R := 1024) (C := 512) v 0x00000000#32 h hφ hacc j

/-- A weight block's lane sum at row `p`. -/
theorem slotSum_apply (v : FVec Ideal S256x1024 .f32) (h : S256x1024.Reduces [1] S256) (hφ : FTy.f32 = FTy.f32 ∨ FTy.f32 = FTy.bf16)
    (hacc : (0x00000000#32 : BitVec 32) = 0x00000000#32) (p : Fin 256) :
    multiReduction .add [1] S256 v 0x00000000#32 h hφ hacc (ix1 p) = ∑ j : Fin 1024, v (ix2 p j) :=
  laneSum_apply (R := 256) (C := 1024) v 0x00000000#32 h hφ hacc p

/-- A weight block's lane maximum from the word `acc` at row `p`. -/
theorem slotMax_apply (v : FVec Ideal S256x1024 .f32) (h : S256x1024.Reduces [1] S256) (hφ : FTy.f32 = FTy.f32 ∨ FTy.f32 = FTy.bf16)
    (hacc : (0xFF800000#32 : BitVec 32) = 0xFF800000#32) (p : Fin 256) :
    multiReduction .maximumf [1] S256 v 0xFF800000#32 h hφ hacc (ix1 p)
      = (Finset.univ : Finset (Fin 1024)).fold max bottomW (fun j => v (ix2 p j)) :=
  laneMax_apply (R := 256) (C := 1024) v 0xFF800000#32 h hφ hacc p

/-! ## The body's stages, each for any operands whose entries are known -/

/-- The floored length of row `p` of a feature block, kept as a column. -/
theorem featLen_apply (x : FVec Ideal S256x512 .f32) (h : S256x512.Reduces [1] S256) (hφ : FTy.f32 = FTy.f32 ∨ FTy.f32 = FTy.bf16)
    (hacc : (0x00000000#32 : BitVec 32) = 0x00000000#32) (hc : S256.ShapeCasts S256x1) (p : Fin 256) (q : Fin 1) :
    maximumf (sqrt (shapeCast S256x1 (multiReduction .add [1] S256 (mulf x x) 0x00000000#32 h hφ hacc) hc))
        (broadcast S256x1 (Scalar.ofBits .f32 0x2B8CBCCC#32)) (ix2 p q)
      = len (fun k => x (ix2 p k)) := by
  rw [maximumf_apply, sqrt_apply, castCol_apply, featSum_apply, broadcast_apply]
  rfl

/-- Row `p` of a feature block scaled to unit length. -/
theorem featUnit_apply (x : FVec Ideal S256x512 .f32) (h : S256x512.Reduces [1] S256) (hφ : FTy.f32 = FTy.f32 ∨ FTy.f32 = FTy.bf16)
    (hacc : (0x00000000#32 : BitVec 32) = 0x00000000#32) (hc : S256.ShapeCasts S256x1) (hb : S256x1.Broadcasts S256x512) (p : Fin 256) (k : Fin 512) :
    divf x (broadcastTo S256x512 (maximumf (sqrt (shapeCast S256x1 (multiReduction .add [1] S256 (mulf x x) 0x00000000#32 h hφ hacc) hc))
        (broadcast S256x1 (Scalar.ofBits .f32 0x2B8CBCCC#32))) hb) (ix2 p k)
      = unit (fun k => x (ix2 p k)) k := by
  rw [divf_apply, spreadCol_apply, featLen_apply]
  rfl

/-- The floored length of memory row `j`, kept as a column. -/
theorem memLen_apply (y : FVec Ideal S1024x512 .f32) (h : S1024x512.Reduces [1] S1024) (hφ : FTy.f32 = FTy.f32 ∨ FTy.f32 = FTy.bf16)
    (hacc : (0x00000000#32 : BitVec 32) = 0x00000000#32) (hc : S1024.ShapeCasts S1024x1) (j : Fin 1024) (q : Fin 1) :
    maximumf (sqrt (shapeCast S1024x1 (multiReduction .add [1] S1024 (mulf y y) 0x00000000#32 h hφ hacc) hc))
        (broadcast S1024x1 (Scalar.ofBits .f32 0x2B8CBCCC#32)) (ix2 j q)
      = len (fun k => y (ix2 j k)) := by
  rw [maximumf_apply, sqrt_apply, castCol_apply, memSum_apply, broadcast_apply]
  rfl

/-- Memory row `j` scaled to unit length. -/
theorem memUnit_apply (y : FVec Ideal S1024x512 .f32) (h : S1024x512.Reduces [1] S1024) (hφ : FTy.f32 = FTy.f32 ∨ FTy.f32 = FTy.bf16)
    (hacc : (0x00000000#32 : BitVec 32) = 0x00000000#32) (hc : S1024.ShapeCasts S1024x1) (hb : S1024x1.Broadcasts S1024x512) (j : Fin 1024) (k : Fin 512) :
    divf y (broadcastTo S1024x512 (maximumf (sqrt (shapeCast S1024x1 (multiReduction .add [1] S1024 (mulf y y) 0x00000000#32 h hφ hacc) hc))
        (broadcast S1024x1 (Scalar.ofBits .f32 0x2B8CBCCC#32))) hb) (ix2 j k)
      = unit (fun k => y (ix2 j k)) k := by
  rw [divf_apply, spreadCol_apply, memLen_apply]
  rfl

/-- The similarity product of two operands whose rows are known. -/
theorem simOf_apply (u : FVec Ideal S256x512 .f32) (w : FVec Ideal S1024x512 .f32) (p : Fin 256) (j : Fin 1024)
    (U : Fin 512 → EReal) (W : Fin 512 → EReal) (hu : ∀ k, u (ix2 p k) = U k) (hw : ∀ k, w (ix2 j k) = W k) :
    matmul dot_S256x512_S1024x512_S256x1024_1_1_0_0_n_n none (truncf .bf16 u bitsLt_bf16_f32) (truncf .bf16 w bitsLt_bf16_f32)
        (constant S256x1024 .f32 0x00000000#32) (ix2 p j)
      = ∑ k : Fin 512, U k * W k := by
  rw [simProd_apply]
  exact Finset.sum_congr rfl fun k _ => by rw [truncf_apply, truncf_apply, hu k, hw k]

/-- The maximum of row `p` of a block of similarities, spread back over the row. -/
theorem topOf_apply (s : FVec Ideal S256x1024 .f32) (h : S256x1024.Reduces [1] S256) (hφ : FTy.f32 = FTy.f32 ∨ FTy.f32 = FTy.bf16)
    (hm : (0xFF800000#32 : BitVec 32) = 0xFF800000#32) (hc : S256.ShapeCasts S256x1) (hb : S256x1.Broadcasts S256x1024)
    (p : Fin 256) (j : Fin 1024) (S : Fin 1024 → EReal) (hs : ∀ j, s (ix2 p j) = S j) :
    broadcastTo S256x1024 (shapeCast S256x1 (multiReduction .maximumf [1] S256 s 0xFF800000#32 h hφ hm) hc) hb (ix2 p j) = top S := by
  rw [spreadCol_apply, castCol_apply, slotMax_apply, funext hs]
  rfl

/-- The shifted exponentials of row `p`. -/
theorem exOf_apply (s m : FVec Ideal S256x1024 .f32) (p : Fin 256) (j : Fin 1024) (S : Fin 1024 → EReal) (hs : ∀ j, s (ix2 p j) = S j)
    (hm : ∀ j, m (ix2 p j) = top S) : exp (subf s m) (ix2 p j) = ex S j := by
  rw [exp_apply, subf_apply, hs, hm]
  rfl

/-- A row divided by its sum. -/
theorem softOf_apply (e : FVec Ideal S256x1024 .f32) (h : S256x1024.Reduces [1] S256) (hφ : FTy.f32 = FTy.f32 ∨ FTy.f32 = FTy.bf16)
    (ha : (0x00000000#32 : BitVec 32) = 0x00000000#32) (hc : S256.ShapeCasts S256x1) (hb : S256x1.Broadcasts S256x1024)
    (p : Fin 256) (j : Fin 1024) (S : Fin 1024 → EReal) (he : ∀ j, e (ix2 p j) = ex S j) :
    divf e (broadcastTo S256x1024 (shapeCast S256x1 (multiReduction .add [1] S256 e 0x00000000#32 h hφ ha) hc) hb) (ix2 p j) = soft S j := by
  rw [divf_apply, spreadCol_apply, castCol_apply, slotSum_apply, he]
  exact congrArg (Ideal.div (ex S j)) (Finset.sum_congr rfl fun j' _ => he j')

/-- One weight shrunk towards zero. -/
theorem shrinkOf_apply (w : FVec Ideal S256x1024 .f32) (p : Fin 256) (j : Fin 1024) (W : EReal) (hw : w (ix2 p j) = W) :
    divf (mulf (maximumf (subf w (broadcast S256x1024 (Scalar.ofBits .f32 0x3B23D70A#32))) (broadcast S256x1024 (Scalar.ofBits .f32 0x00000000#32))) w)
        (addf (absf (subf w (broadcast S256x1024 (Scalar.ofBits .f32 0x3B23D70A#32)))) (broadcast S256x1024 (Scalar.ofBits .f32 0x2B8CBCCC#32)))
        (ix2 p j)
      = shrink W := by
  rw [divf_apply, mulf_apply, maximumf_apply, subf_apply, addf_apply, absf_apply, subf_apply, broadcast_apply, broadcast_apply, broadcast_apply, hw]
  rfl

/-! ## The body's values, entry by entry -/

/-- The shrunk softmax weight the body holds at row `p`, slot `j`, before the rows are scaled. -/
theorem raw_apply (x0 : Vec Ideal S256x512 .f32) (x1 : Vec Ideal S1024x512 .f32) (p : Fin 256) (j : Fin 1024) :
    k1_pay3 x0 x1 (ix2 p j) = raw (fun k => x0 (ix2 p k)) (fun j k => x1 (ix2 j k)) j := by
  unfold k1_pay3
  exact shrinkOf_apply _ p j _ (softOf_apply _ _ _ _ _ _ p j _ fun j' =>
    exOf_apply _ _ p j' _
      (fun j₂ => simOf_apply _ _ p j₂ _ _ (fun k => featUnit_apply x0 _ _ _ _ _ p k) (fun k => memUnit_apply x1 _ _ _ _ _ j₂ k))
      (fun j'' => topOf_apply _ _ _ _ _ _ p j'' _
        (fun j₂ => simOf_apply _ _ p j₂ _ _ (fun k => featUnit_apply x0 _ _ _ _ _ p k) (fun k => memUnit_apply x1 _ _ _ _ _ j₂ k))))

/-- The absolute sum of row `p`'s shrunk weights. -/
theorem rawSum_apply (x0 : Vec Ideal S256x512 .f32) (x1 : Vec Ideal S1024x512 .f32) (p : Fin 256) :
    k1_pay4 x0 x1 (ix1 p) = ∑ j : Fin 1024, abs' (raw (fun k => x0 (ix2 p k)) (fun j k => x1 (ix2 j k)) j) := by
  unfold k1_pay4
  rw [slotSum_apply]
  exact Finset.sum_congr rfl fun j _ => by rw [absf_apply, raw_apply]

/-- Scaling by the floored row sums, for any weights and sums. -/
theorem scaled_apply (v40 : FVec Ideal S256x1024 .f32) (v42 : FVec Ideal S256 .f32) (p : Fin 256) (j : Fin 1024) :
    k1_pay1 v40 v42 (ix2 p j) = Ideal.div (v40 (ix2 p j)) (max (v42 (ix1 p)) floorW) := by
  unfold k1_pay1
  rw [divf_apply, spreadCol_apply, maximumf_apply, castCol_apply, broadcast_apply]
  rfl

/-- The weights the body stores: entry `(p, j)` is the unit's weight of row `p` of the block for slot `j`. -/
theorem weight_apply (x0 : Vec Ideal S256x512 .f32) (x1 : Vec Ideal S1024x512 .f32) (p : Fin 256) (j : Fin 1024) :
    k1_pay1 (k1_pay3 x0 x1) (k1_pay4 x0 x1) (ix2 p j) = weight (fun k => x0 (ix2 p k)) (fun j k => x1 (ix2 j k)) j := by
  rw [scaled_apply, raw_apply, rawSum_apply]
  rfl

/-- The read the body stores: entry `(p, k)` is the unit's memory read of row `p` of the block at channel `k`. -/
theorem read_apply (x0 : Vec Ideal S256x512 .f32) (x1 : Vec Ideal S1024x512 .f32) (p : Fin 256) (k : Fin 512) :
    k1_pay2 x1 (k1_pay3 x0 x1) (k1_pay4 x0 x1) (ix2 p k) = read (fun k => x0 (ix2 p k)) (fun j k => x1 (ix2 j k)) k := by
  unfold k1_pay2
  rw [readProd_apply]
  exact Finset.sum_congr rfl fun j _ => by rw [truncf_apply, truncf_apply, weight_apply]

end Cert.KernelIdeal.Unit1

end
-- ==== Proof.Unit1Array.lean ====
/-
  Memory unit 1 (512 channels): the kernel's two result arrays after its 64 grid points.

  Point `t` of the grid holds rows 256 t … 256 t + 255 of the features and the whole memory, and writes back the same rows of both
  results. What it writes is, entry by entry, the unit's function of the feature row behind the entry (row `p` of the block is row
  `256 t + p` of the array) and of the memory: the weights in one window; in the other the read in the first 512 channels (the
  store at column 0) and the feature block itself in the last 512 (the store at column 512). Every row of a result lies in exactly one
  point's block, so after the run each result array is the unit's whole-array function of the feature and memory arrays as the
  region found them.
-/
import proofs.«148232_j41257455845951_1_alg».proof.Proof.Gen.KernelIdeal.Frame
import proofs.«148232_j41257455845951_1_alg».proof.Proof.Unit1Body
import proofs.«148232_j41257455845951_1_alg».proof.Proof.MemUnit
import Idealize.ShloMosaic.Lib.Pipeline.Value
import Idealize.ShloMosaic.Lib.ValueIdx

set_option maxRecDepth 16384

noncomputable section

namespace Cert.KernelIdeal.Unit1

open Cert.KernelIdeal Cert.KernelIdeal.Gen Idealize.ShloMosaic Idealize.ShloMosaic.TcCoe Idealize.ShloMosaic.ValueIdx Idealize.SL.Sem Cert.MemUnit
open Idealize.ShloMosaic.Pipeline (Dat Cfg Window)

variable (V : (c : Dev nD) → (b : Ref sig .tc) → Buf (Elt Ideal) ((c : Thread nD τ).loc b))

/-- The feature array and the memory array as the region finds them. -/
abbrev featArr (c : Dev nD) : S16384x512.Idx → EReal := V c main_arg1
abbrev memArr (c : Dev nD) : S1024x512.Idx → EReal := V c main_arg4

theorem hz : (![0, 0] : Fin 2 → Nat) = fun _ => 0 := funext fun a => by fin_cases a <;> rfl

/-- The printed index maps over the grid: the feature window and both result windows move one block of rows per point, the memory
    window stays, and no window moves along the channels. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Entry `(p, k)` of point `t`'s feature block is entry `(256 t + p, k)` of the feature array. -/
theorem featBlock (c : Dev nD) (t : Fin cfg1.N) (p : Fin 256) (k : Fin 512) (r : Fin 16384) (hr : r.val = t.val * 256 + p.val) :
    iblk1 V c 0 t (ix2 p k) = featArr V c (ix2 r k) := by
  obtain ⟨e0, e1, -⟩ := idx_facts t
  show V c main_arg1 (((cfg1.win 0).blk t).view.emb (ix2 p k)) = V c main_arg1 (ix2 r k)
  refine congrArg (V c main_arg1) (funext fun a => Fin.ext ?_)
  match a with
  | ⟨0, _⟩ => show win1_0.index t (0 : Fin 2) * 256 + 1 * p.val = r.val; omega
  | ⟨1, _⟩ => show win1_0.index t (1 : Fin 2) * 512 + 1 * k.val = k.val; omega

/-- Every point's memory block is the whole memory array. -/
theorem memBlock (c : Dev nD) (t : Fin cfg1.N) (j : Fin 1024) (k : Fin 512) :
    iblk1 V c 1 t (ix2 j k) = memArr V c (ix2 j k) := by
  obtain ⟨-, -, e2, e3, -⟩ := idx_facts t
  show V c main_arg4 (((cfg1.win 1).blk t).view.emb (ix2 j k)) = V c main_arg4 (ix2 j k)
  refine congrArg (V c main_arg4) (funext fun a => Fin.ext ?_)
  match a with
  | ⟨0, _⟩ => show win1_1.index t (0 : Fin 2) * 1024 + 1 * j.val = j.val; omega
  | ⟨1, _⟩ => show win1_1.index t (1 : Fin 2) * 512 + 1 * k.val = k.val; omega

/-- Row `p` of point `t`'s feature block is row `256 t + p` of the feature array; the memory block's rows are the memory's. -/
theorem featRow (c : Dev nD) (t : Fin cfg1.N) (p : Fin 256) (r : Fin 16384) (hr : r.val = t.val * 256 + p.val) :
    (fun k : Fin 512 => iblk1 V c 0 t (ix2 p k)) = rowOf (featArr V c) r := funext fun k => featBlock V c t p k r hr
theorem memRows (c : Dev nD) (t : Fin cfg1.N) :
    (fun (j : Fin 1024) (k : Fin 512) => iblk1 V c 1 t (ix2 j k)) = rowsOf (memArr V c) := funext fun j => funext fun k => memBlock V c t j k

/-! ## The weights -/

/-- What point `t` writes back to the weights is block `t` of the unit's weights. -/
theorem flushedW_eq (c : Dev nD) (t : Fin cfg1.N) :
    (dat1 V c).flushed 3 t = ((cfg1.win 3).blk t).view.read (Elt Ideal) (weights (featArr V c) (memArr V c)) := by
  show (cfg1.win 3).cut (grid1.coords t) ((dat1 V c).after 3 t) = _
  rw [after1_3]
  unfold out1_3
  rw [View.canon_unit_zero hz]
  simp only [View.ld_unit_zero (S := S256x512) hz, View.ld_unit_zero (S := S1024x512) hz]
  funext y
  obtain ⟨p, j, rfl⟩ : ∃ (p : Fin 256) (j : Fin 1024), y = ix2 p j := ⟨y 0, y 1, eq_ix2 y⟩
  have ht : t.val < 64 := t.isLt
  have hp := p.isLt
  obtain ⟨-, -, -, -, -, -, e6, e7⟩ := idx_facts t
  refine (weight_apply (iblk1 V c 0 t) (iblk1 V c 1 t) p j).trans ?_
  rw [featRow V c t p ⟨t.val * 256 + p.val, by omega⟩ rfl, memRows V c t]
  exact (weights_at (featArr V c) (memArr V c) _ ⟨t.val * 256 + p.val, by omega⟩ j
    (by show win1_3.index t (0 : Fin 2) * 256 + 1 * p.val = t.val * 256 + p.val; omega)
    (by show win1_3.index t (1 : Fin 2) * 1024 + 1 * j.val = j.val; omega)).symm

/-- An index of the weights is in point `t`'s block iff each coordinate is in the block's range on its axis. -/
theorem mem_blkW (t : Fin cfg1.N) (i : S16384x1024.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v1_1).slice (win1_3.rect t)).set ↔ _
  rw [View.set_slice_whole, Rect.mem_set_unit]
  exact Iff.rfl

/-- Every index of the weights is in the block of the point its row falls in. -/
theorem coverW (i : S16384x1024.Idx) : ∃ t : Fin cfg1.N, (cfg1.win 3).flush t = true ∧ i ∈ ((cfg1.win 3).blk t).view.set := by
  have hi0 : (i 0).val < 16384 := (i 0).isLt
  have hi1 : (i 1).val < 1024 := (i 1).isLt
  have hN : cfg1.N = 64 := N_1
  refine ⟨⟨(i 0).val / 256, by rw [hN]; omega⟩, flush1_3 _, ?_⟩
  obtain ⟨-, -, -, -, -, -, e6, e7⟩ := idx_facts ⟨(i 0).val / 256, by rw [hN]; omega⟩
  rw [mem_blkW]
  intro a
  match a with
  | ⟨0, _⟩ => show win1_3.index _ (0 : Fin 2) * 256 ≤ (i 0).val ∧ (i 0).val < win1_3.index _ (0 : Fin 2) * 256 + 256; rw [e6]; show (i 0).val / 256 * 256 ≤ (i 0).val ∧ (i 0).val < (i 0).val / 256 * 256 + 256; omega
  | ⟨1, _⟩ => show win1_3.index _ (1 : Fin 2) * 1024 ≤ (i 1).val ∧ (i 1).val < win1_3.index _ (1 : Fin 2) * 1024 + 1024; rw [e7]; omega

/-- The weights array after the run. -/
theorem weights_arr (c : Dev nD) : (dat1 V c).arrAt 3 cfg1.N = weights (featArr V c) (memArr V c) :=
  (dat1 V c).arrAt_eq_of_cover 3 (weights (featArr V c) (memArr V c)) (fun t _ => flushedW_eq V c t) (coverW)

/-! ## The joined result -/

/-- What point `t` writes back to the joined result is block `t` of the unit's joined array: the store at column 512 holds the feature
    block, the store at column 0 the read. -/
theorem flushedJ_eq (c : Dev nD) (t : Fin cfg1.N) :
    (dat1 V c).flushed 2 t
      = ((cfg1.win 2).blk t).view.read (Elt Ideal) (joined (C := 512) (D := 1024) rfl (featArr V c) (memArr V c)) := by
  show (cfg1.win 2).cut (grid1.coords t) ((dat1 V c).after 2 t) = _
  rw [after1_2]
  unfold out1_2
  simp only [View.ld_unit_zero (S := S256x512) hz, View.ld_unit_zero (S := S1024x512) hz]
  have ht : t.val < 64 := t.isLt
  obtain ⟨-, -, -, -, e4, e5, -⟩ := idx_facts t
  funext y
  refine View.canon_apply_of_pieces (Val := Elt Ideal)
    (fun y => joined (C := 512) (D := 1024) rfl (featArr V c) (memArr V c) (((cfg1.win 2).blk t).view.emb y)) _ ?_ y (cover1_2 _ _ y)
  intro pc hpc x
  rcases List.mem_cons.mp hpc with rfl | hpc
  · obtain ⟨p, k, rfl⟩ : ∃ (p : Fin 256) (k : Fin 512), x = ix2 p k := ⟨x 0, x 1, eq_ix2 x⟩
    have hp := p.isLt
    have hk := k.isLt
    refine (featBlock V c t p k ⟨t.val * 256 + p.val, by omega⟩ rfl).trans ?_
    refine (joined_at_feat rfl (featArr V c) (memArr V c) _ ⟨t.val * 256 + p.val, by omega⟩ k ?_ ?_).symm
    · show win1_2.index t (0 : Fin 2) * 256 + 1 * (0 + 1 * p.val) = t.val * 256 + p.val; omega
    · show win1_2.index t (1 : Fin 2) * 1024 + 1 * (512 + 1 * k.val) = 512 + k.val; omega
  · rcases List.mem_singleton.mp hpc with rfl
    obtain ⟨p, k, rfl⟩ : ∃ (p : Fin 256) (k : Fin 512), x = ix2 p k := ⟨x 0, x 1, eq_ix2 x⟩
    have hp := p.isLt
    have hk := k.isLt
    refine (read_apply (iblk1 V c 0 t) (iblk1 V c 1 t) p k).trans ?_
    rw [featRow V c t p ⟨t.val * 256 + p.val, by omega⟩ rfl, memRows V c t]
    refine (joined_at_read rfl (featArr V c) (memArr V c) _ ⟨t.val * 256 + p.val, by omega⟩ k ?_ ?_).symm
    · show win1_2.index t (0 : Fin 2) * 256 + 1 * (0 + 1 * p.val) = t.val * 256 + p.val; omega
    · show win1_2.index t (1 : Fin 2) * 1024 + 1 * (0 + 1 * k.val) = k.val; omega

/-- An index of the joined result is in point `t`'s block iff each coordinate is in the block's range on its axis. -/
theorem mem_blkJ (t : Fin cfg1.N) (i : S16384x1024.Idx) :
    i ∈ ((cfg1.win 2).blk t).view.set ↔ ∀ a : Fin 2, win1_2.index t a * S256x1024.size a ≤ (i a).val ∧ (i a).val < win1_2.index t a * S256x1024.size a + S256x1024.size a := by
  show i ∈ ((View.whole main_v1_0).slice (win1_2.rect t)).set ↔ _
  rw [View.set_slice_whole, Rect.mem_set_unit]
  exact Iff.rfl

/-- Every index of the joined result is in the block of the point its row falls in. -/
theorem coverJ (i : S16384x1024.Idx) : ∃ t : Fin cfg1.N, (cfg1.win 2).flush t = true ∧ i ∈ ((cfg1.win 2).blk t).view.set := by
  have hi0 : (i 0).val < 16384 := (i 0).isLt
  have hi1 : (i 1).val < 1024 := (i 1).isLt
  have hN : cfg1.N = 64 := N_1
  refine ⟨⟨(i 0).val / 256, by rw [hN]; omega⟩, flush1_2 _, ?_⟩
  obtain ⟨-, -, -, -, e4, e5, -⟩ := idx_facts ⟨(i 0).val / 256, by rw [hN]; omega⟩
  rw [mem_blkJ]
  intro a
  match a with
  | ⟨0, _⟩ => show win1_2.index _ (0 : Fin 2) * 256 ≤ (i 0).val ∧ (i 0).val < win1_2.index _ (0 : Fin 2) * 256 + 256; rw [e4]; show (i 0).val / 256 * 256 ≤ (i 0).val ∧ (i 0).val < (i 0).val / 256 * 256 + 256; omega
  | ⟨1, _⟩ => show win1_2.index _ (1 : Fin 2) * 1024 ≤ (i 1).val ∧ (i 1).val < win1_2.index _ (1 : Fin 2) * 1024 + 1024; rw [e5]; omega

/-- The joined array after the run. -/
theorem joined_arr (c : Dev nD) : (dat1 V c).arrAt 2 cfg1.N = joined (C := 512) (D := 1024) rfl (featArr V c) (memArr V c) :=
  (dat1 V c).arrAt_eq_of_cover 2 (joined (C := 512) (D := 1024) rfl (featArr V c) (memArr V c)) (fun t _ => flushedJ_eq V c t) (coverJ)

end Cert.KernelIdeal.Unit1

end
-- ==== Proof.Unit2Body.lean ====
/-
  Memory unit 2 (1024 channels): what the kernel's body computes in one block of 256 feature rows, read entry by entry.

  The body holds the block `x0` (256 rows of the features) and the whole memory `x1` (1024 rows). Its two matrix products run into a
  zero accumulator on operands whose change of float format is the identity on the extended reals, so each is the plain sum of
  products over the contracted axis: lanes against lanes for the similarities, the weights' lanes against the memory's rows for the
  read. Each lane reduction is kept as a column and spread back, which reads as the row's sum (or maximum). Entry by entry the
  stored weights are therefore `MemUnit.weight` of the entry's feature row and the memory, and the stored read is `MemUnit.read`.
-/
import proofs.«148232_j41257455845951_1_alg».proof.Proof.Gen.KernelIdeal.Skeleton
import proofs.«148232_j41257455845951_1_alg».proof.Proof.MemUnit
import proofs.«148232_j41257455845951_1_alg».proof.Proof.LibRowOps
import Idealize.ShloMosaic.Lib.ValueIdx
import Idealize.ShloMosaic.Lib.Pipeline.Value
import Idealize.ShloMosaic.PureOps.Ideal.Laws

noncomputable section

open scoped BigOperators

namespace Cert.KernelIdeal.Unit2

open Cert.KernelIdeal Cert.KernelIdeal.Gen Idealize.ShloMosaic Idealize.ShloMosaic.ValueIdx Cert.MemUnit Cert.RowOps

/-! ## The similarity product: lanes of the feature block against lanes of the memory -/

theorem simL0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem simL1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem simR0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem simR1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- Into the zero accumulator, entry `(p, j)` of the similarity product is the inner product of row `p` of the left operand and row
    `j` of the right. -/
theorem simProd_apply (l : FVec Ideal S256x1024 .bf16) (r : FVec Ideal S1024x1024 .bf16) (p : Fin 256) (j : Fin 1024) :
    matmul dot_S256x1024_S1024x1024_S256x1024_1_1_0_0_n_n none l r (constant S256x1024 .f32 0x00000000#32) (ix2 p j)
      = ∑ k : Fin 1024, l (ix2 p k) * r (ix2 j k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p j) ((contrEquiv1 dot_S256x1024_S1024x1024_S256x1024_1_1_0_0_n_n 1024 rfl rfl).symm k) = ix2 p k := funext fun a => Fin.ext (by
    match a with
    | ⟨0, _⟩ => exact simL0 _ _
    | ⟨1, _⟩ => exact (simL1 _ _).trans hk)
  have er : dot_S256x1024_S1024x1024_S256x1024_1_1_0_0_n_n.rhsIdx (ix2 p j) ((contrEquiv1 dot_S256x1024_S1024x1024_S256x1024_1_1_0_0_n_n 1024 rfl rfl).symm k) = ix2 j k := funext fun a => Fin.ext (by
    match a with
    | ⟨0, _⟩ => exact simR0 _ _
    | ⟨1, _⟩ => exact (simR1 _ _).trans hk)
  rw [el, er]

/-! ## The read product: lanes of the weights against rows of the memory -/

theorem readL0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem readL1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem readR0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem readR1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Into the zero accumulator, entry `(p, k)` of the read product is the sum over the memory slots `j` of the left operand at `(p, j)`
    times the right at `(j, k)`. -/
theorem readProd_apply (l : FVec Ideal S256x1024 .bf16) (r : FVec Ideal S1024x1024 .bf16) (p : Fin 256) (k : Fin 1024) :
    matmul dot_S256x1024_S1024x1024_S256x1024_1_0_0_1_n_n none l r (constant S256x1024 .f32 0x00000000#32) (ix2 p k)
      = ∑ j : Fin 1024, l (ix2 p j) * r (ix2 j k) := by
  simp only [matmul]
  rw [Ideal.matmul_constant_zero_apply, ← Equiv.sum_comp (contrEquiv1 dot_S256x1024_S1024x1024_S256x1024_1_0_0_1_n_n 1024 rfl rfl).symm]
  refine Finset.sum_congr rfl fun j _ => ?_
  have hj := contrEquiv1_symm_val dot_S256x1024_S1024x1024_S256x1024_1_0_0_1_n_n 1024 rfl rfl j
  have el : dot_S256x1024_S1024x1024_S256x1024_1_0_0_1_n_n.lhsIdx (ix2 p k) ((contrEquiv1 dot_S256x1024_S1024x1024_S256x1024_1_0_0_1_n_n 1024 rfl rfl).symm j) = ix2 p j := funext fun a => Fin.ext (by
    match a with
    | ⟨0, _⟩ => exact readL0 _ _
    | ⟨1, _⟩ => exact (readL1 _ _).trans hj)
  have er : dot_S256x1024_S1024x1024_S256x1024_1_0_0_1_n_n.rhsIdx (ix2 p k) ((contrEquiv1 dot_S256x1024_S1024x1024_S256x1024_1_0_0_1_n_n 1024 rfl rfl).symm j) = ix2 j k := funext fun a => Fin.ext (by
    match a with
    | ⟨0, _⟩ => exact (readR0 _ _).trans hj
    | ⟨1, _⟩ => exact readR1 _ _)
  rw [el, er]

/-! ## The lane reductions at this unit's shapes -/

/-- A feature block's lane sum at row `p`. -/
theorem featSum_apply (v : FVec Ideal S256x1024 .f32) (h : S256x1024.Reduces [1] S256) (hφ : FTy.f32 = FTy.f32 ∨ FTy.f32 = FTy.bf16)
    (hacc : (0x00000000#32 : BitVec 32) = 0x00000000#32) (p : Fin 256) :
    multiReduction .add [1] S256 v 0x00000000#32 h hφ hacc (ix1 p) = ∑ k : Fin 1024, v (ix2 p k) :=
  laneSum_apply (R := 256) (C := 1024) v 0x00000000#32 h hφ hacc p

/-- The memory's lane sum at row `j`. -/
theorem memSum_apply (v : FVec Ideal S1024x1024 .f32) (h : S1024x1024.Reduces [1] S1024) (hφ : FTy.f32 = FTy.f32 ∨ FTy.f32 = FTy.bf16)
    (hacc : (0x00000000#32 : BitVec 32) = 0x00000000#32) (j : Fin 1024) :
    multiReduction .add [1] S1024 v 0x00000000#32 h hφ hacc (ix1 j) = ∑ k : Fin 1024, v (ix2 j k) :=
  laneSum_apply (R := 1024) (C := 1024) v 0x00000000#32 h hφ hacc j

/-- A weight block's lane sum at row `p`. -/
theorem slotSum_apply (v : FVec Ideal S256x1024 .f32) (h : S256x1024.Reduces [1] S256) (hφ : FTy.f32 = FTy.f32 ∨ FTy.f32 = FTy.bf16)
    (hacc : (0x00000000#32 : BitVec 32) = 0x00000000#32) (p : Fin 256) :
    multiReduction .add [1] S256 v 0x00000000#32 h hφ hacc (ix1 p) = ∑ j : Fin 1024, v (ix2 p j) :=
  laneSum_apply (R := 256) (C := 1024) v 0x00000000#32 h hφ hacc p

/-- A weight block's lane maximum from the word `acc` at row `p`. -/
theorem slotMax_apply (v : FVec Ideal S256x1024 .f32) (h : S256x1024.Reduces [1] S256) (hφ : FTy.f32 = FTy.f32 ∨ FTy.f32 = FTy.bf16)
    (hacc : (0xFF800000#32 : BitVec 32) = 0xFF800000#32) (p : Fin 256) :
    multiReduction .maximumf [1] S256 v 0xFF800000#32 h hφ hacc (ix1 p)
      = (Finset.univ : Finset (Fin 1024)).fold max bottomW (fun j => v (ix2 p j)) :=
  laneMax_apply (R := 256) (C := 1024) v 0xFF800000#32 h hφ hacc p

/-! ## The body's stages, each for any operands whose entries are known -/

/-- The floored length of row `p` of a feature block, kept as a column. -/
theorem featLen_apply (x : FVec Ideal S256x1024 .f32) (h : S256x1024.Reduces [1] S256) (hφ : FTy.f32 = FTy.f32 ∨ FTy.f32 = FTy.bf16)
    (hacc : (0x00000000#32 : BitVec 32) = 0x00000000#32) (hc : S256.ShapeCasts S256x1) (p : Fin 256) (q : Fin 1) :
    maximumf (sqrt (shapeCast S256x1 (multiReduction .add [1] S256 (mulf x x) 0x00000000#32 h hφ hacc) hc))
        (broadcast S256x1 (Scalar.ofBits .f32 0x2B8CBCCC#32)) (ix2 p q)
      = len (fun k => x (ix2 p k)) := by
  rw [maximumf_apply, sqrt_apply, castCol_apply, featSum_apply, broadcast_apply]
  rfl

/-- Row `p` of a feature block scaled to unit length. -/
theorem featUnit_apply (x : FVec Ideal S256x1024 .f32) (h : S256x1024.Reduces [1] S256) (hφ : FTy.f32 = FTy.f32 ∨ FTy.f32 = FTy.bf16)
    (hacc : (0x00000000#32 : BitVec 32) = 0x00000000#32) (hc : S256.ShapeCasts S256x1) (hb : S256x1.Broadcasts S256x1024) (p : Fin 256) (k : Fin 1024) :
    divf x (broadcastTo S256x1024 (maximumf (sqrt (shapeCast S256x1 (multiReduction .add [1] S256 (mulf x x) 0x00000000#32 h hφ hacc) hc))
        (broadcast S256x1 (Scalar.ofBits .f32 0x2B8CBCCC#32))) hb) (ix2 p k)
      = unit (fun k => x (ix2 p k)) k := by
  rw [divf_apply, spreadCol_apply, featLen_apply]
  rfl

/-- The floored length of memory row `j`, kept as a column. -/
theorem memLen_apply (y : FVec Ideal S1024x1024 .f32) (h : S1024x1024.Reduces [1] S1024) (hφ : FTy.f32 = FTy.f32 ∨ FTy.f32 = FTy.bf16)
    (hacc : (0x00000000#32 : BitVec 32) = 0x00000000#32) (hc : S1024.ShapeCasts S1024x1) (j : Fin 1024) (q : Fin 1) :
    maximumf (sqrt (shapeCast S1024x1 (multiReduction .add [1] S1024 (mulf y y) 0x00000000#32 h hφ hacc) hc))
        (broadcast S1024x1 (Scalar.ofBits .f32 0x2B8CBCCC#32)) (ix2 j q)
      = len (fun k => y (ix2 j k)) := by
  rw [maximumf_apply, sqrt_apply, castCol_apply, memSum_apply, broadcast_apply]
  rfl

/-- Memory row `j` scaled to unit length. -/
theorem memUnit_apply (y : FVec Ideal S1024x1024 .f32) (h : S1024x1024.Reduces [1] S1024) (hφ : FTy.f32 = FTy.f32 ∨ FTy.f32 = FTy.bf16)
    (hacc : (0x00000000#32 : BitVec 32) = 0x00000000#32) (hc : S1024.ShapeCasts S1024x1) (hb : S1024x1.Broadcasts S1024x1024) (j : Fin 1024) (k : Fin 1024) :
    divf y (broadcastTo S1024x1024 (maximumf (sqrt (shapeCast S1024x1 (multiReduction .add [1] S1024 (mulf y y) 0x00000000#32 h hφ hacc) hc))
        (broadcast S1024x1 (Scalar.ofBits .f32 0x2B8CBCCC#32))) hb) (ix2 j k)
      = unit (fun k => y (ix2 j k)) k := by
  rw [divf_apply, spreadCol_apply, memLen_apply]
  rfl

/-- The similarity product of two operands whose rows are known. -/
theorem simOf_apply (u : FVec Ideal S256x1024 .f32) (w : FVec Ideal S1024x1024 .f32) (p : Fin 256) (j : Fin 1024)
    (U : Fin 1024 → EReal) (W : Fin 1024 → EReal) (hu : ∀ k, u (ix2 p k) = U k) (hw : ∀ k, w (ix2 j k) = W k) :
    matmul dot_S256x1024_S1024x1024_S256x1024_1_1_0_0_n_n none (truncf .bf16 u bitsLt_bf16_f32) (truncf .bf16 w bitsLt_bf16_f32)
        (constant S256x1024 .f32 0x00000000#32) (ix2 p j)
      = ∑ k : Fin 1024, U k * W k := by
  rw [simProd_apply]
  exact Finset.sum_congr rfl fun k _ => by rw [truncf_apply, truncf_apply, hu k, hw k]

/-- The maximum of row `p` of a block of similarities, spread back over the row. -/
theorem topOf_apply (s : FVec Ideal S256x1024 .f32) (h : S256x1024.Reduces [1] S256) (hφ : FTy.f32 = FTy.f32 ∨ FTy.f32 = FTy.bf16)
    (hm : (0xFF800000#32 : BitVec 32) = 0xFF800000#32) (hc : S256.ShapeCasts S256x1) (hb : S256x1.Broadcasts S256x1024)
    (p : Fin 256) (j : Fin 1024) (S : Fin 1024 → EReal) (hs : ∀ j, s (ix2 p j) = S j) :
    broadcastTo S256x1024 (shapeCast S256x1 (multiReduction .maximumf [1] S256 s 0xFF800000#32 h hφ hm) hc) hb (ix2 p j) = top S := by
  rw [spreadCol_apply, castCol_apply, slotMax_apply, funext hs]
  rfl

/-- The shifted exponentials of row `p`. -/
theorem exOf_apply (s m : FVec Ideal S256x1024 .f32) (p : Fin 256) (j : Fin 1024) (S : Fin 1024 → EReal) (hs : ∀ j, s (ix2 p j) = S j)
    (hm : ∀ j, m (ix2 p j) = top S) : exp (subf s m) (ix2 p j) = ex S j := by
  rw [exp_apply, subf_apply, hs, hm]
  rfl

/-- A row divided by its sum. -/
theorem softOf_apply (e : FVec Ideal S256x1024 .f32) (h : S256x1024.Reduces [1] S256) (hφ : FTy.f32 = FTy.f32 ∨ FTy.f32 = FTy.bf16)
    (ha : (0x00000000#32 : BitVec 32) = 0x00000000#32) (hc : S256.ShapeCasts S256x1) (hb : S256x1.Broadcasts S256x1024)
    (p : Fin 256) (j : Fin 1024) (S : Fin 1024 → EReal) (he : ∀ j, e (ix2 p j) = ex S j) :
    divf e (broadcastTo S256x1024 (shapeCast S256x1 (multiReduction .add [1] S256 e 0x00000000#32 h hφ ha) hc) hb) (ix2 p j) = soft S j := by
  rw [divf_apply, spreadCol_apply, castCol_apply, slotSum_apply, he]
  exact congrArg (Ideal.div (ex S j)) (Finset.sum_congr rfl fun j' _ => he j')

/-- One weight shrunk towards zero. -/
theorem shrinkOf_apply (w : FVec Ideal S256x1024 .f32) (p : Fin 256) (j : Fin 1024) (W : EReal) (hw : w (ix2 p j) = W) :
    divf (mulf (maximumf (subf w (broadcast S256x1024 (Scalar.ofBits .f32 0x3B23D70A#32))) (broadcast S256x1024 (Scalar.ofBits .f32 0x00000000#32))) w)
        (addf (absf (subf w (broadcast S256x1024 (Scalar.ofBits .f32 0x3B23D70A#32)))) (broadcast S256x1024 (Scalar.ofBits .f32 0x2B8CBCCC#32)))
        (ix2 p j)
      = shrink W := by
  rw [divf_apply, mulf_apply, maximumf_apply, subf_apply, addf_apply, absf_apply, subf_apply, broadcast_apply, broadcast_apply, broadcast_apply, hw]
  rfl

/-! ## The body's values, entry by entry -/

/-- The shrunk softmax weight the body holds at row `p`, slot `j`, before the rows are scaled. -/
theorem raw_apply (x0 : Vec Ideal S256x1024 .f32) (x1 : Vec Ideal S1024x1024 .f32) (p : Fin 256) (j : Fin 1024) :
    k2_pay3 x0 x1 (ix2 p j) = raw (fun k => x0 (ix2 p k)) (fun j k => x1 (ix2 j k)) j := by
  unfold k2_pay3
  exact shrinkOf_apply _ p j _ (softOf_apply _ _ _ _ _ _ p j _ fun j' =>
    exOf_apply _ _ p j' _
      (fun j₂ => simOf_apply _ _ p j₂ _ _ (fun k => featUnit_apply x0 _ _ _ _ _ p k) (fun k => memUnit_apply x1 _ _ _ _ _ j₂ k))
      (fun j'' => topOf_apply _ _ _ _ _ _ p j'' _
        (fun j₂ => simOf_apply _ _ p j₂ _ _ (fun k => featUnit_apply x0 _ _ _ _ _ p k) (fun k => memUnit_apply x1 _ _ _ _ _ j₂ k))))

/-- The absolute sum of row `p`'s shrunk weights. -/
theorem rawSum_apply (x0 : Vec Ideal S256x1024 .f32) (x1 : Vec Ideal S1024x1024 .f32) (p : Fin 256) :
    k2_pay4 x0 x1 (ix1 p) = ∑ j : Fin 1024, abs' (raw (fun k => x0 (ix2 p k)) (fun j k => x1 (ix2 j k)) j) := by
  unfold k2_pay4
  rw [slotSum_apply]
  exact Finset.sum_congr rfl fun j _ => by rw [absf_apply, raw_apply]

/-- Scaling by the floored row sums, for any weights and sums. -/
theorem scaled_apply (v40 : FVec Ideal S256x1024 .f32) (v42 : FVec Ideal S256 .f32) (p : Fin 256) (j : Fin 1024) :
    k2_pay1 v40 v42 (ix2 p j) = Ideal.div (v40 (ix2 p j)) (max (v42 (ix1 p)) floorW) := by
  unfold k2_pay1
  rw [divf_apply, spreadCol_apply, maximumf_apply, castCol_apply, broadcast_apply]
  rfl

/-- The weights the body stores: entry `(p, j)` is the unit's weight of row `p` of the block for slot `j`. -/
theorem weight_apply (x0 : Vec Ideal S256x1024 .f32) (x1 : Vec Ideal S1024x1024 .f32) (p : Fin 256) (j : Fin 1024) :
    k2_pay1 (k2_pay3 x0 x1) (k2_pay4 x0 x1) (ix2 p j) = weight (fun k => x0 (ix2 p k)) (fun j k => x1 (ix2 j k)) j := by
  rw [scaled_apply, raw_apply, rawSum_apply]
  rfl

/-- The read the body stores: entry `(p, k)` is the unit's memory read of row `p` of the block at channel `k`. -/
theorem read_apply (x0 : Vec Ideal S256x1024 .f32) (x1 : Vec Ideal S1024x1024 .f32) (p : Fin 256) (k : Fin 1024) :
    k2_pay2 x1 (k2_pay3 x0 x1) (k2_pay4 x0 x1) (ix2 p k) = read (fun k => x0 (ix2 p k)) (fun j k => x1 (ix2 j k)) k := by
  unfold k2_pay2
  rw [readProd_apply]
  exact Finset.sum_congr rfl fun j _ => by rw [truncf_apply, truncf_apply, weight_apply]

end Cert.KernelIdeal.Unit2

end
-- ==== Proof.Unit2Array.lean ====
/-
  Memory unit 2 (1024 channels): the kernel's two result arrays after its 64 grid points.

  Point `t` of the grid holds rows 256 t … 256 t + 255 of the features and the whole memory, and writes back the same rows of both
  results. What it writes is, entry by entry, the unit's function of the feature row behind the entry (row `p` of the block is row
  `256 t + p` of the array) and of the memory: the weights in one window; in the other the read in the first 1024 channels (the
  store at column 0) and the feature block itself in the last 1024 (the store at column 1024). Every row of a result lies in exactly one
  point's block, so after the run each result array is the unit's whole-array function of the feature and memory arrays as the
  region found them.
-/
import proofs.«148232_j41257455845951_1_alg».proof.Proof.Gen.KernelIdeal.Frame
import proofs.«148232_j41257455845951_1_alg».proof.Proof.Unit2Body
import proofs.«148232_j41257455845951_1_alg».proof.Proof.MemUnit
import Idealize.ShloMosaic.Lib.Pipeline.Value
import Idealize.ShloMosaic.Lib.ValueIdx

set_option maxRecDepth 16384

noncomputable section

namespace Cert.KernelIdeal.Unit2

open Cert.KernelIdeal Cert.KernelIdeal.Gen Idealize.ShloMosaic Idealize.ShloMosaic.TcCoe Idealize.ShloMosaic.ValueIdx Idealize.SL.Sem Cert.MemUnit
open Idealize.ShloMosaic.Pipeline (Dat Cfg Window)

variable (V : (c : Dev nD) → (b : Ref sig .tc) → Buf (Elt Ideal) ((c : Thread nD τ).loc b))

/-- The feature array and the memory array as the region finds them. -/
abbrev featArr (c : Dev nD) : S16384x1024.Idx → EReal := V c main_arg2
abbrev memArr (c : Dev nD) : S1024x1024.Idx → EReal := V c main_arg5

theorem hz : (![0, 0] : Fin 2 → Nat) = fun _ => 0 := funext fun a => by fin_cases a <;> rfl

/-- The printed index maps over the grid: the feature window and both result windows move one block of rows per point, the memory
    window stays, and no window moves along the channels. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Entry `(p, k)` of point `t`'s feature block is entry `(256 t + p, k)` of the feature array. -/
theorem featBlock (c : Dev nD) (t : Fin cfg2.N) (p : Fin 256) (k : Fin 1024) (r : Fin 16384) (hr : r.val = t.val * 256 + p.val) :
    iblk2 V c 0 t (ix2 p k) = featArr V c (ix2 r k) := by
  obtain ⟨e0, e1, -⟩ := idx_facts t
  show V c main_arg2 (((cfg2.win 0).blk t).view.emb (ix2 p k)) = V c main_arg2 (ix2 r k)
  refine congrArg (V c main_arg2) (funext fun a => Fin.ext ?_)
  match a with
  | ⟨0, _⟩ => show win2_0.index t (0 : Fin 2) * 256 + 1 * p.val = r.val; omega
  | ⟨1, _⟩ => show win2_0.index t (1 : Fin 2) * 1024 + 1 * k.val = k.val; omega

/-- Every point's memory block is the whole memory array. -/
theorem memBlock (c : Dev nD) (t : Fin cfg2.N) (j : Fin 1024) (k : Fin 1024) :
    iblk2 V c 1 t (ix2 j k) = memArr V c (ix2 j k) := by
  obtain ⟨-, -, e2, e3, -⟩ := idx_facts t
  show V c main_arg5 (((cfg2.win 1).blk t).view.emb (ix2 j k)) = V c main_arg5 (ix2 j k)
  refine congrArg (V c main_arg5) (funext fun a => Fin.ext ?_)
  match a with
  | ⟨0, _⟩ => show win2_1.index t (0 : Fin 2) * 1024 + 1 * j.val = j.val; omega
  | ⟨1, _⟩ => show win2_1.index t (1 : Fin 2) * 1024 + 1 * k.val = k.val; omega

/-- Row `p` of point `t`'s feature block is row `256 t + p` of the feature array; the memory block's rows are the memory's. -/
theorem featRow (c : Dev nD) (t : Fin cfg2.N) (p : Fin 256) (r : Fin 16384) (hr : r.val = t.val * 256 + p.val) :
    (fun k : Fin 1024 => iblk2 V c 0 t (ix2 p k)) = rowOf (featArr V c) r := funext fun k => featBlock V c t p k r hr
theorem memRows (c : Dev nD) (t : Fin cfg2.N) :
    (fun (j : Fin 1024) (k : Fin 1024) => iblk2 V c 1 t (ix2 j k)) = rowsOf (memArr V c) := funext fun j => funext fun k => memBlock V c t j k

/-! ## The weights -/

/-- What point `t` writes back to the weights is block `t` of the unit's weights. -/
theorem flushedW_eq (c : Dev nD) (t : Fin cfg2.N) :
    (dat2 V c).flushed 3 t = ((cfg2.win 3).blk t).view.read (Elt Ideal) (weights (featArr V c) (memArr V c)) := by
  show (cfg2.win 3).cut (grid2.coords t) ((dat2 V c).after 3 t) = _
  rw [after2_3]
  unfold out2_3
  rw [View.canon_unit_zero hz]
  simp only [View.ld_unit_zero (S := S256x1024) hz, View.ld_unit_zero (S := S1024x1024) hz]
  funext y
  obtain ⟨p, j, rfl⟩ : ∃ (p : Fin 256) (j : Fin 1024), y = ix2 p j := ⟨y 0, y 1, eq_ix2 y⟩
  have ht : t.val < 64 := t.isLt
  have hp := p.isLt
  obtain ⟨-, -, -, -, -, -, e6, e7⟩ := idx_facts t
  refine (weight_apply (iblk2 V c 0 t) (iblk2 V c 1 t) p j).trans ?_
  rw [featRow V c t p ⟨t.val * 256 + p.val, by omega⟩ rfl, memRows V c t]
  exact (weights_at (featArr V c) (memArr V c) _ ⟨t.val * 256 + p.val, by omega⟩ j
    (by show win2_3.index t (0 : Fin 2) * 256 + 1 * p.val = t.val * 256 + p.val; omega)
    (by show win2_3.index t (1 : Fin 2) * 1024 + 1 * j.val = j.val; omega)).symm

/-- An index of the weights is in point `t`'s block iff each coordinate is in the block's range on its axis. -/
theorem mem_blkW (t : Fin cfg2.N) (i : S16384x1024.Idx) :
    i ∈ ((cfg2.win 3).blk t).view.set ↔ ∀ a : Fin 2, win2_3.index t a * S256x1024.size a ≤ (i a).val ∧ (i a).val < win2_3.index t a * S256x1024.size a + S256x1024.size a := by
  show i ∈ ((View.whole main_v2_1).slice (win2_3.rect t)).set ↔ _
  rw [View.set_slice_whole, Rect.mem_set_unit]
  exact Iff.rfl

/-- Every index of the weights is in the block of the point its row falls in. -/
theorem coverW (i : S16384x1024.Idx) : ∃ t : Fin cfg2.N, (cfg2.win 3).flush t = true ∧ i ∈ ((cfg2.win 3).blk t).view.set := by
  have hi0 : (i 0).val < 16384 := (i 0).isLt
  have hi1 : (i 1).val < 1024 := (i 1).isLt
  have hN : cfg2.N = 64 := N_2
  refine ⟨⟨(i 0).val / 256, by rw [hN]; omega⟩, flush2_3 _, ?_⟩
  obtain ⟨-, -, -, -, -, -, e6, e7⟩ := idx_facts ⟨(i 0).val / 256, by rw [hN]; omega⟩
  rw [mem_blkW]
  intro a
  match a with
  | ⟨0, _⟩ => show win2_3.index _ (0 : Fin 2) * 256 ≤ (i 0).val ∧ (i 0).val < win2_3.index _ (0 : Fin 2) * 256 + 256; rw [e6]; show (i 0).val / 256 * 256 ≤ (i 0).val ∧ (i 0).val < (i 0).val / 256 * 256 + 256; omega
  | ⟨1, _⟩ => show win2_3.index _ (1 : Fin 2) * 1024 ≤ (i 1).val ∧ (i 1).val < win2_3.index _ (1 : Fin 2) * 1024 + 1024; rw [e7]; omega

/-- The weights array after the run. -/
theorem weights_arr (c : Dev nD) : (dat2 V c).arrAt 3 cfg2.N = weights (featArr V c) (memArr V c) :=
  (dat2 V c).arrAt_eq_of_cover 3 (weights (featArr V c) (memArr V c)) (fun t _ => flushedW_eq V c t) (coverW)

/-! ## The joined result -/

/-- What point `t` writes back to the joined result is block `t` of the unit's joined array: the store at column 1024 holds the feature
    block, the store at column 0 the read. -/
theorem flushedJ_eq (c : Dev nD) (t : Fin cfg2.N) :
    (dat2 V c).flushed 2 t
      = ((cfg2.win 2).blk t).view.read (Elt Ideal) (joined (C := 1024) (D := 2048) rfl (featArr V c) (memArr V c)) := by
  show (cfg2.win 2).cut (grid2.coords t) ((dat2 V c).after 2 t) = _
  rw [after2_2]
  unfold out2_2
  simp only [View.ld_unit_zero (S := S256x1024) hz, View.ld_unit_zero (S := S1024x1024) hz]
  have ht : t.val < 64 := t.isLt
  obtain ⟨-, -, -, -, e4, e5, -⟩ := idx_facts t
  funext y
  refine View.canon_apply_of_pieces (Val := Elt Ideal)
    (fun y => joined (C := 1024) (D := 2048) rfl (featArr V c) (memArr V c) (((cfg2.win 2).blk t).view.emb y)) _ ?_ y (cover2_2 _ _ y)
  intro pc hpc x
  rcases List.mem_cons.mp hpc with rfl | hpc
  · obtain ⟨p, k, rfl⟩ : ∃ (p : Fin 256) (k : Fin 1024), x = ix2 p k := ⟨x 0, x 1, eq_ix2 x⟩
    have hp := p.isLt
    have hk := k.isLt
    refine (featBlock V c t p k ⟨t.val * 256 + p.val, by omega⟩ rfl).trans ?_
    refine (joined_at_feat rfl (featArr V c) (memArr V c) _ ⟨t.val * 256 + p.val, by omega⟩ k ?_ ?_).symm
    · show win2_2.index t (0 : Fin 2) * 256 + 1 * (0 + 1 * p.val) = t.val * 256 + p.val; omega
    · show win2_2.index t (1 : Fin 2) * 2048 + 1 * (1024 + 1 * k.val) = 1024 + k.val; omega
  · rcases List.mem_singleton.mp hpc with rfl
    obtain ⟨p, k, rfl⟩ : ∃ (p : Fin 256) (k : Fin 1024), x = ix2 p k := ⟨x 0, x 1, eq_ix2 x⟩
    have hp := p.isLt
    have hk := k.isLt
    refine (read_apply (iblk2 V c 0 t) (iblk2 V c 1 t) p k).trans ?_
    rw [featRow V c t p ⟨t.val * 256 + p.val, by omega⟩ rfl, memRows V c t]
    refine (joined_at_read rfl (featArr V c) (memArr V c) _ ⟨t.val * 256 + p.val, by omega⟩ k ?_ ?_).symm
    · show win2_2.index t (0 : Fin 2) * 256 + 1 * (0 + 1 * p.val) = t.val * 256 + p.val; omega
    · show win2_2.index t (1 : Fin 2) * 2048 + 1 * (0 + 1 * k.val) = k.val; omega

/-- An index of the joined result is in point `t`'s block iff each coordinate is in the block's range on its axis. -/
theorem mem_blkJ (t : Fin cfg2.N) (i : S16384x2048.Idx) :
    i ∈ ((cfg2.win 2).blk t).view.set ↔ ∀ a : Fin 2, win2_2.index t a * S256x2048.size a ≤ (i a).val ∧ (i a).val < win2_2.index t a * S256x2048.size a + S256x2048.size a := by
  show i ∈ ((View.whole main_v2_0).slice (win2_2.rect t)).set ↔ _
  rw [View.set_slice_whole, Rect.mem_set_unit]
  exact Iff.rfl

/-- Every index of the joined result is in the block of the point its row falls in. -/
theorem coverJ (i : S16384x2048.Idx) : ∃ t : Fin cfg2.N, (cfg2.win 2).flush t = true ∧ i ∈ ((cfg2.win 2).blk t).view.set := by
  have hi0 : (i 0).val < 16384 := (i 0).isLt
  have hi1 : (i 1).val < 2048 := (i 1).isLt
  have hN : cfg2.N = 64 := N_2
  refine ⟨⟨(i 0).val / 256, by rw [hN]; omega⟩, flush2_2 _, ?_⟩
  obtain ⟨-, -, -, -, e4, e5, -⟩ := idx_facts ⟨(i 0).val / 256, by rw [hN]; omega⟩
  rw [mem_blkJ]
  intro a
  match a with
  | ⟨0, _⟩ => show win2_2.index _ (0 : Fin 2) * 256 ≤ (i 0).val ∧ (i 0).val < win2_2.index _ (0 : Fin 2) * 256 + 256; rw [e4]; show (i 0).val / 256 * 256 ≤ (i 0).val ∧ (i 0).val < (i 0).val / 256 * 256 + 256; omega
  | ⟨1, _⟩ => show win2_2.index _ (1 : Fin 2) * 2048 ≤ (i 1).val ∧ (i 1).val < win2_2.index _ (1 : Fin 2) * 2048 + 2048; rw [e5]; omega

/-- The joined array after the run. -/
theorem joined_arr (c : Dev nD) : (dat2 V c).arrAt 2 cfg2.N = joined (C := 1024) (D := 2048) rfl (featArr V c) (memArr V c) :=
  (dat2 V c).arrAt_eq_of_cover 2 (joined (C := 1024) (D := 2048) rfl (featArr V c) (memArr V c)) (fun t _ => flushedJ_eq V c t) (coverJ)

end Cert.KernelIdeal.Unit2

end
-- ==== Proof.KernelResult.lean ====
/-
  The kernel's run with its six results named as the memory units' functions of the launch arrays.

  @main is three pallas_calls in a row, one memory unit each, on disjoint arrays: unit `k` reads feature array `k` and memory array
  `k` and writes its own two results. So at the end each result buffer still holds what its own region left (later regions do not
  touch it), and each region finds its two operand arrays as they were launched (earlier regions do not write them). With the
  regions' result arrays read as the units' whole-array functions, the run ends with result `k` at `MemUnit.joined` and result
  `3 + k` at `MemUnit.weights` of the launch contents of feature array `k` and memory array `k`.
-/
import proofs.«148232_j41257455845951_1_alg».proof.Proof.KernelRun
import proofs.«148232_j41257455845951_1_alg».proof.Proof.Unit0Array
import proofs.«148232_j41257455845951_1_alg».proof.Proof.Unit1Array
import proofs.«148232_j41257455845951_1_alg».proof.Proof.Unit2Array

set_option maxRecDepth 16384

noncomputable section

namespace Cert.KernelIdeal.Result

open Cert.KernelIdeal Cert.KernelIdeal.Gen Idealize.ShloMosaic Idealize.ShloMosaic.TcCoe Idealize.SL.Sem Cert.MemUnit

variable (m : (ℓ : Loc nD τ sig) → Buf (Elt Ideal) ℓ) (ρ : Dev nD → PrngReg)

/-! ## Each region finds its operand arrays as launched -/

theorem feat0 (c : Dev nD) : Unit0.featArr (V0 m ρ) c = m ((c : Thread nD τ).loc main_arg0) := rfl
theorem mem0 (c : Dev nD) : Unit0.memArr (V0 m ρ) c = m ((c : Thread nD τ).loc main_arg3) := rfl
theorem feat1 (c : Dev nD) : Unit1.featArr (V1 m ρ) c = m ((c : Thread nD τ).loc main_arg1) :=
  (W1_of_ne m ρ c main_arg1 (by decide)).trans rfl
theorem mem1 (c : Dev nD) : Unit1.memArr (V1 m ρ) c = m ((c : Thread nD τ).loc main_arg4) :=
  (W1_of_ne m ρ c main_arg4 (by decide)).trans rfl
theorem feat2 (c : Dev nD) : Unit2.featArr (V2 m ρ) c = m ((c : Thread nD τ).loc main_arg2) :=
  ((W2_of_ne m ρ c main_arg2 (by decide)).trans (W1_of_ne m ρ c main_arg2 (by decide))).trans rfl
theorem mem2 (c : Dev nD) : Unit2.memArr (V2 m ρ) c = m ((c : Thread nD τ).loc main_arg5) :=
  ((W2_of_ne m ρ c main_arg5 (by decide)).trans (W1_of_ne m ρ c main_arg5 (by decide))).trans rfl

/-! ## Each result buffer at the end holds what its own region left -/

theorem joined0 (c : Dev nD) : W3 m ρ c (Proc.devRef .tc main_v0_0)
    = joined (C := 256) (D := 512) rfl (m ((c : Thread nD τ).loc main_arg0)) (m ((c : Thread nD τ).loc main_arg3)) := by
  rw [W3_of_ne m ρ c main_v0_0 (by decide), W2_of_ne m ρ c main_v0_0 (by decide)]
  refine (W1_arr m ρ c 2).trans ?_
  rw [Unit0.joined_arr (V0 m ρ) c, feat0, mem0]

theorem weights0 (c : Dev nD) : W3 m ρ c (Proc.devRef .tc main_v0_1)
    = weights (m ((c : Thread nD τ).loc main_arg0)) (m ((c : Thread nD τ).loc main_arg3)) := by
  rw [W3_of_ne m ρ c main_v0_1 (by decide), W2_of_ne m ρ c main_v0_1 (by decide)]
  refine (W1_arr m ρ c 3).trans ?_
  rw [Unit0.weights_arr (V0 m ρ) c, feat0, mem0]

theorem joined1 (c : Dev nD) : W3 m ρ c (Proc.devRef .tc main_v1_0)
    = joined (C := 512) (D := 1024) rfl (m ((c : Thread nD τ).loc main_arg1)) (m ((c : Thread nD τ).loc main_arg4)) := by
  rw [W3_of_ne m ρ c main_v1_0 (by decide)]
  refine (W2_arr m ρ c 2).trans ?_
  rw [Unit1.joined_arr (V1 m ρ) c, feat1, mem1]

theorem weights1 (c : Dev nD) : W3 m ρ c (Proc.devRef .tc main_v1_1)
    = weights (m ((c : Thread nD τ).loc main_arg1)) (m ((c : Thread nD τ).loc main_arg4)) := by
  rw [W3_of_ne m ρ c main_v1_1 (by decide)]
  refine (W2_arr m ρ c 3).trans ?_
  rw [Unit1.weights_arr (V1 m ρ) c, feat1, mem1]

theorem joined2 (c : Dev nD) : W3 m ρ c (Proc.devRef .tc main_v2_0)
    = joined (C := 1024) (D := 2048) rfl (m ((c : Thread nD τ).loc main_arg2)) (m ((c : Thread nD τ).loc main_arg5)) := by
  refine (W3_arr m ρ c 2).trans ?_
  rw [Unit2.joined_arr (V2 m ρ) c, feat2, mem2]

theorem weights2 (c : Dev nD) : W3 m ρ c (Proc.devRef .tc main_v2_1)
    = weights (m ((c : Thread nD τ).loc main_arg2)) (m ((c : Thread nD τ).loc main_arg5)) := by
  refine (W3_arr m ρ c 3).trans ?_
  rw [Unit2.weights_arr (V2 m ρ) c, feat2, mem2]

/-! ## The run -/

/-- Every weakly fair execution of @main terminates, nothing faulting, with the six results at the memory units' functions of the
    launch arrays and the argument arrays unchanged. -/
theorem run : θ_run defs (onTc (τ := τ) (main (F := Ideal))) ⟨m, fun _ => 0, ρ⟩ (fun r => ∀ c : Dev nD,
      r.2.mem ((c.tc : Thread nD τ).loc main_v0_0) = joined (C := 256) (D := 512) rfl (m ((c : Thread nD τ).loc main_arg0)) (m ((c : Thread nD τ).loc main_arg3))
      ∧ r.2.mem ((c.tc : Thread nD τ).loc main_v1_0) = joined (C := 512) (D := 1024) rfl (m ((c : Thread nD τ).loc main_arg1)) (m ((c : Thread nD τ).loc main_arg4))
      ∧ r.2.mem ((c.tc : Thread nD τ).loc main_v2_0) = joined (C := 1024) (D := 2048) rfl (m ((c : Thread nD τ).loc main_arg2)) (m ((c : Thread nD τ).loc main_arg5))
      ∧ r.2.mem ((c.tc : Thread nD τ).loc main_v0_1) = weights (m ((c : Thread nD τ).loc main_arg0)) (m ((c : Thread nD τ).loc main_arg3))
      ∧ r.2.mem ((c.tc : Thread nD τ).loc main_v1_1) = weights (m ((c : Thread nD τ).loc main_arg1)) (m ((c : Thread nD τ).loc main_arg4))
      ∧ r.2.mem ((c.tc : Thread nD τ).loc main_v2_1) = weights (m ((c : Thread nD τ).loc main_arg2)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c).1.trans (joined0 m ρ c), (h c).2.1.trans (joined1 m ρ c), (h c).2.2.1.trans (joined2 m ρ c),
     (h c).2.2.2.1.trans (weights0 m ρ c), (h c).2.2.2.2.1.trans (weights1 m ρ c), (h c).2.2.2.2.2.1.trans (weights2 m ρ c),
     (h c).2.2.2.2.2.2⟩)
    (Cert.KernelIdeal.Run.run_named m ρ)

end Cert.KernelIdeal.Result

end
-- ==== Proof.Unit0Ref.lean ====
/-
  Memory unit 0 (256 channels): the reference's two results, read entry by entry, are the unit's functions of the argument arrays.

  The reference computes on whole arrays (16384 feature rows, 1024 memory rows). Every operation of it acts on each row by itself: a
  row's sum or maximum over the lanes, the column so obtained spread back over the row, a pointwise operation, and two matrix
  products whose entry at a row depends on that row of the left operand only. Read at row `r`, stage after stage, its values are the
  stages of `MemUnit` at feature row `r`: the row's floored length, the unit rows, the similarities, their maximum (jax's softmax
  takes the maximum of −∞ and the row's maximum from −∞, which is the row's maximum), the softmax, the shrunk weights, their floored
  absolute sum, the weights, and the memory read. The joined result holds the read in its first 256 channels and the features in its
  last 256.
-/
import proofs.«148232_j41257455845951_1_alg».proof.Proof.RefRead
import proofs.«148232_j41257455845951_1_alg».proof.Proof.MemUnit
import proofs.«148232_j41257455845951_1_alg».proof.Proof.LibRowOps
import Idealize.ShloMosaic.Lib.ValueIdx
import Idealize.ShloMosaic.Lib.Pipeline.Value
import Idealize.ShloMosaic.PureOps.Ideal.Laws

noncomputable section

open scoped BigOperators

namespace Cert.ReferenceIdeal.Unit0

open Cert.ReferenceIdeal Cert.ReferenceIdeal.Gen Cert.ReferenceIdeal.ReadP Idealize.ShloMosaic Idealize.ShloMosaic.ValueIdx Cert.MemUnit Cert.RowOps

variable (X : (⟨S16384x256, .f32⟩ : BufTy).Contents (Elt Ideal)) (Y : (⟨S1024x256, .f32⟩ : BufTy).Contents (Elt Ideal))

/-- The floored length of feature row `r`, kept as a column. -/
theorem featLen (r : Fin 16384) (q : Fin 1) : val_main_v5 (F := Ideal) X (ix2 r q) = len (rowOf X r) := by
  have e : ∀ k : Fin 256, idx_main_v1 (idx_main_v2 (ix2 r q)) k = ix2 r k := fun k => funext fun a => by
    match a with
    | ⟨0, _⟩ => rfl
    | ⟨1, _⟩ => rfl
  simp only [val_main_v5_apply, val_main_v3_apply, val_main_v2_apply, val_main_v1_apply, val_main_v0_apply, val_main_v4_apply,
    val_main_cst_apply, val_main_cst_0_apply, e]
  exact congrArg (fun s => max (Ideal.sqrt s) floorW) (zeroW_add _)

/-- The floored length of memory row `j`, kept as a column. -/
theorem memLen (j : Fin 1024) (q : Fin 1) : val_main_v13 (F := Ideal) Y (ix2 j q) = len (rowOf Y j) := by
  have e : ∀ k : Fin 256, idx_main_v9 (idx_main_v10 (ix2 j q)) k = ix2 j k := fun k => funext fun a => by
    match a with
    | ⟨0, _⟩ => rfl
    | ⟨1, _⟩ => rfl
  simp only [val_main_v13_apply, val_main_v11_apply, val_main_v10_apply, val_main_v9_apply, val_main_v8_apply, val_main_v12_apply,
    val_main_cst_1_apply, val_main_cst_2_apply, e]
  exact congrArg (fun s => max (Ideal.sqrt s) floorW) (zeroW_add _)

/-- Feature row `r` scaled to unit length. -/
theorem featUnit (r : Fin 16384) (k : Fin 256) : val_main_v7 (F := Ideal) X (ix2 r k) = unit (rowOf X r) k := by
  have e : idx_main_v6 (ix2 r k) = ix2 r (0 : Fin 1) := funext fun a => by
    match a with
    | ⟨0, _⟩ => rfl
    | ⟨1, _⟩ => rfl
  simp only [val_main_v7_apply, val_main_v6_apply, e, featLen]
  rfl

/-- Memory row `j` scaled to unit length. -/
theorem memUnit (j : Fin 1024) (k : Fin 256) : val_main_v15 (F := Ideal) Y (ix2 j k) = unit (rowOf Y j) k := by
  have e : idx_main_v14 (ix2 j k) = ix2 j (0 : Fin 1) := funext fun a => by
    match a with
    | ⟨0, _⟩ => rfl
    | ⟨1, _⟩ => rfl
  simp only [val_main_v15_apply, val_main_v14_apply, e, memLen]
  rfl

/-- The similarity of feature row `r` to memory slot `j`. -/
theorem simEq (r : Fin 16384) (j : Fin 1024) : val_main_v17 (F := Ideal) X Y (ix2 r j) = sim (rowOf X r) (rowsOf Y) j := by
  have el : ∀ k : Fin 256, lidx_main_v17 (ix2 r j) k = ix2 r k := fun k => funext fun a => by
    match a with
    | ⟨0, _⟩ => rfl
    | ⟨1, _⟩ => rfl
  have er : ∀ k : Fin 256, idx_main_v16 (ridx_main_v17 (ix2 r j) k) = ix2 j k := fun k => funext fun a => by
    match a with
    | ⟨0, _⟩ => rfl
    | ⟨1, _⟩ => rfl
  simp only [val_main_v17_apply, val_main_v16_apply, el, er, featUnit, memUnit]
  rfl

/-- The maximum of row `r`'s similarities. -/
theorem topEq (r : Fin 16384) : val_main_v20 (F := Ideal) X Y (ix1 r) = top (sim (rowOf X r) (rowsOf Y)) := by
  rw [val_main_v20_apply]
  unfold val_main_v18
  rw [hostLaneMax_apply (val_main_v17 (F := Ideal) X Y) (val_main_cst_3 (F := Ideal)) reducesTo_S16384x1024_S16384_d1 (by decide) h_S_ r]
  simp only [simEq]
  exact bottomW_max _

/-- The shifted exponential of a similarity. -/
theorem exEq (r : Fin 16384) (j : Fin 1024) : val_main_v24 (F := Ideal) X Y (ix2 r j) = ex (sim (rowOf X r) (rowsOf Y)) j := by
  have e : idx_main_v21 (idx_main_v22 (ix2 r j)) = ix1 r := funext fun a => by
    match a with
    | ⟨0, _⟩ => rfl
  simp only [val_main_v24_apply, val_main_v23_apply, val_main_v22_apply, val_main_v21_apply, e, simEq, topEq]
  rfl

/-- The softmax of row `r`'s similarities. -/
theorem softEq (r : Fin 16384) (j : Fin 1024) : val_main_v28 (F := Ideal) X Y (ix2 r j) = soft (sim (rowOf X r) (rowsOf Y)) j := by
  have e : ∀ k : Fin 1024, idx_main_v25 (idx_main_v26 (idx_main_v27 (ix2 r j))) k = ix2 r k := fun k => funext fun a => by
    match a with
    | ⟨0, _⟩ => rfl
    | ⟨1, _⟩ => rfl
  simp only [val_main_v28_apply, val_main_v27_apply, val_main_v26_apply, val_main_v25_apply, val_main_cst_5_apply, e, exEq]
  exact congrArg (fun s => Ideal.div (ex (sim (rowOf X r) (rowsOf Y)) j) s) (zeroW_add _)

/-- The shrunk weight of row `r` for slot `j`. -/
theorem rawEq (r : Fin 16384) (j : Fin 1024) : val_main_v38 (F := Ideal) X Y (ix2 r j) = raw (rowOf X r) (rowsOf Y) j := by
  simp only [val_main_v38_apply, val_main_v37_apply, val_main_v36_apply, val_main_v35_apply, val_main_v34_apply, val_main_v33_apply,
    val_main_v32_apply, val_main_v31_apply, val_main_v30_apply, val_main_v29_apply, val_main_call0_v0_apply, val_main_call0_cst_apply,
    val_main_cst_6_apply, val_main_cst_7_apply, val_main_cst_8_apply, softEq]
  rfl

/-- The floored absolute sum of row `r`'s shrunk weights, kept as a column. -/
theorem massEq (r : Fin 16384) (q : Fin 1) : val_main_v43 (F := Ideal) X Y (ix2 r q) = mass (rowOf X r) (rowsOf Y) := by
  have e : ∀ k : Fin 1024, idx_main_v40 (idx_main_v41 (ix2 r q)) k = ix2 r k := fun k => funext fun a => by
    match a with
    | ⟨0, _⟩ => rfl
    | ⟨1, _⟩ => rfl
  simp only [val_main_v43_apply, val_main_v42_apply, val_main_v41_apply, val_main_v40_apply, val_main_v39_apply, val_main_cst_9_apply,
    val_main_cst_10_apply, e, rawEq]
  exact congrArg (fun s => max s floorW) (zeroW_add _)

/-- The weight of row `r` for slot `j`. -/
theorem weightEq (r : Fin 16384) (j : Fin 1024) : val_main_v45 (F := Ideal) X Y (ix2 r j) = weight (rowOf X r) (rowsOf Y) j := by
  have e : idx_main_v44 (ix2 r j) = ix2 r (0 : Fin 1) := funext fun a => by
    match a with
    | ⟨0, _⟩ => rfl
    | ⟨1, _⟩ => rfl
  simp only [val_main_v45_apply, val_main_v44_apply, e, rawEq, massEq]
  rfl

/-- The memory read of row `r` at channel `k`. -/
theorem readEq (r : Fin 16384) (k : Fin 256) : val_main_v46 (F := Ideal) X Y (ix2 r k) = read (rowOf X r) (rowsOf Y) k := by
  have el : ∀ j : Fin 1024, lidx_main_v46 (ix2 r k) j = ix2 r j := fun j => funext fun a => by
    match a with
    | ⟨0, _⟩ => rfl
    | ⟨1, _⟩ => rfl
  have er : ∀ j : Fin 1024, ridx_main_v46 (ix2 r k) j = ix2 j k := fun j => funext fun a => by
    match a with
    | ⟨0, _⟩ => rfl
    | ⟨1, _⟩ => rfl
  simp only [val_main_v46_apply, el, er, weightEq]
  rfl

/-- The reference's weights are the unit's. -/
theorem weights_eq : val_main_v45 (F := Ideal) X Y = weights X Y := by
  funext i
  obtain ⟨r, j, rfl⟩ : ∃ (r : Fin 16384) (j : Fin 1024), i = ix2 r j := ⟨i 0, i 1, eq_ix2 i⟩
  rw [weightEq]
  rfl

/-- The reference's joined result is the unit's: the read in the first 256 channels, the features in the last 256. -/
theorem joined_eq : val_main_v47 (F := Ideal) X Y = joined (C := 256) (D := 512) rfl X Y := by
  funext i
  obtain ⟨r, d, rfl⟩ : ∃ (r : Fin 16384) (d : Fin 512), i = ix2 r d := ⟨i 0, i 1, eq_ix2 i⟩
  have hd := d.isLt
  unfold val_main_v47
  by_cases h : d.val < 256
  · rw [joined_at_read (C := 256) (D := 512) rfl X Y (ix2 r d) r ⟨d.val, h⟩ rfl rfl, ← readEq X Y r ⟨d.val, h⟩]
    exact concatenate_pair_apply_left (s₁ := S16384x256) (s₂ := S16384x256) (t := S16384x512) (1 : Fin S16384x512.rank) _ _ _ (ix2 r d) rfl
      (ix2 r (⟨d.val, h⟩ : Fin 256)) (fun b => by
        match b with
        | ⟨0, _⟩ => rfl
        | ⟨1, _⟩ => rfl)
  · rw [joined_at_feat (C := 256) (D := 512) rfl X Y (ix2 r d) r ⟨d.val - 256, by omega⟩ rfl (by show d.val = 256 + (d.val - 256); omega)]
    exact concatenate_pair_apply_right (s₁ := S16384x256) (s₂ := S16384x256) (t := S16384x512) (1 : Fin S16384x512.rank) _ _ _ (ix2 r d) rfl rfl
      (ix2 r (⟨d.val - 256, by omega⟩ : Fin 256)) (fun b hb => by
        match b with
        | ⟨0, _⟩ => rfl
        | ⟨1, _⟩ => exact absurd rfl hb) (by show d.val - 256 + 256 = d.val; omega)

end Cert.ReferenceIdeal.Unit0

end
-- ==== Proof.Unit1Ref.lean ====
/-
  Memory unit 1 (512 channels): the reference's two results, read entry by entry, are the unit's functions of the argument arrays.

  The reference computes on whole arrays (16384 feature rows, 1024 memory rows). Every operation of it acts on each row by itself: a
  row's sum or maximum over the lanes, the column so obtained spread back over the row, a pointwise operation, and two matrix
  products whose entry at a row depends on that row of the left operand only. Read at row `r`, stage after stage, its values are the
  stages of `MemUnit` at feature row `r`: the row's floored length, the unit rows, the similarities, their maximum (jax's softmax
  takes the maximum of −∞ and the row's maximum from −∞, which is the row's maximum), the softmax, the shrunk weights, their floored
  absolute sum, the weights, and the memory read. The joined result holds the read in its first 512 channels and the features in its
  last 512.
-/
import proofs.«148232_j41257455845951_1_alg».proof.Proof.RefRead
import proofs.«148232_j41257455845951_1_alg».proof.Proof.MemUnit
import proofs.«148232_j41257455845951_1_alg».proof.Proof.LibRowOps
import Idealize.ShloMosaic.Lib.ValueIdx
import Idealize.ShloMosaic.Lib.Pipeline.Value
import Idealize.ShloMosaic.PureOps.Ideal.Laws

noncomputable section

open scoped BigOperators

namespace Cert.ReferenceIdeal.Unit1

open Cert.ReferenceIdeal Cert.ReferenceIdeal.Gen Cert.ReferenceIdeal.ReadP Idealize.ShloMosaic Idealize.ShloMosaic.ValueIdx Cert.MemUnit Cert.RowOps

variable (X : (⟨S16384x512, .f32⟩ : BufTy).Contents (Elt Ideal)) (Y : (⟨S1024x512, .f32⟩ : BufTy).Contents (Elt Ideal))

/-- The floored length of feature row `r`, kept as a column. -/
theorem featLen (r : Fin 16384) (q : Fin 1) : val_main_v53 (F := Ideal) X (ix2 r q) = len (rowOf X r) := by
  have e : ∀ k : Fin 512, idx_main_v49 (idx_main_v50 (ix2 r q)) k = ix2 r k := fun k => funext fun a => by
    match a with
    | ⟨0, _⟩ => rfl
    | ⟨1, _⟩ => rfl
  simp only [val_main_v53_apply, val_main_v51_apply, val_main_v50_apply, val_main_v49_apply, val_main_v48_apply, val_main_v52_apply,
    val_main_cst_11_apply, val_main_cst_12_apply, e]
  exact congrArg (fun s => max (Ideal.sqrt s) floorW) (zeroW_add _)

/-- The floored length of memory row `j`, kept as a column. -/
theorem memLen (j : Fin 1024) (q : Fin 1) : val_main_v61 (F := Ideal) Y (ix2 j q) = len (rowOf Y j) := by
  have e : ∀ k : Fin 512, idx_main_v57 (idx_main_v58 (ix2 j q)) k = ix2 j k := fun k => funext fun a => by
    match a with
    | ⟨0, _⟩ => rfl
    | ⟨1, _⟩ => rfl
  simp only [val_main_v61_apply, val_main_v59_apply, val_main_v58_apply, val_main_v57_apply, val_main_v56_apply, val_main_v60_apply,
    val_main_cst_13_apply, val_main_cst_14_apply, e]
  exact congrArg (fun s => max (Ideal.sqrt s) floorW) (zeroW_add _)

/-- Feature row `r` scaled to unit length. -/
theorem featUnit (r : Fin 16384) (k : Fin 512) : val_main_v55 (F := Ideal) X (ix2 r k) = unit (rowOf X r) k := by
  have e : idx_main_v54 (ix2 r k) = ix2 r (0 : Fin 1) := funext fun a => by
    match a with
    | ⟨0, _⟩ => rfl
    | ⟨1, _⟩ => rfl
  simp only [val_main_v55_apply, val_main_v54_apply, e, featLen]
  rfl

/-- Memory row `j` scaled to unit length. -/
theorem memUnit (j : Fin 1024) (k : Fin 512) : val_main_v63 (F := Ideal) Y (ix2 j k) = unit (rowOf Y j) k := by
  have e : idx_main_v62 (ix2 j k) = ix2 j (0 : Fin 1) := funext fun a => by
    match a with
    | ⟨0, _⟩ => rfl
    | ⟨1, _⟩ => rfl
  simp only [val_main_v63_apply, val_main_v62_apply, e, memLen]
  rfl

/-- The similarity of feature row `r` to memory slot `j`. -/
theorem simEq (r : Fin 16384) (j : Fin 1024) : val_main_v65 (F := Ideal) X Y (ix2 r j) = sim (rowOf X r) (rowsOf Y) j := by
  have el : ∀ k : Fin 512, lidx_main_v65 (ix2 r j) k = ix2 r k := fun k => funext fun a => by
    match a with
    | ⟨0, _⟩ => rfl
    | ⟨1, _⟩ => rfl
  have er : ∀ k : Fin 512, idx_main_v64 (ridx_main_v65 (ix2 r j) k) = ix2 j k := fun k => funext fun a => by
    match a with
    | ⟨0, _⟩ => rfl
    | ⟨1, _⟩ => rfl
  simp only [val_main_v65_apply, val_main_v64_apply, el, er, featUnit, memUnit]
  rfl

/-- The maximum of row `r`'s similarities. -/
theorem topEq (r : Fin 16384) : val_main_v68 (F := Ideal) X Y (ix1 r) = top (sim (rowOf X r) (rowsOf Y)) := by
  rw [val_main_v68_apply]
  unfold val_main_v66
  rw [hostLaneMax_apply (val_main_v65 (F := Ideal) X Y) (val_main_cst_15 (F := Ideal)) reducesTo_S16384x1024_S16384_d1 (by decide) h_S_ r]
  simp only [simEq]
  exact bottomW_max _

/-- The shifted exponential of a similarity. -/
theorem exEq (r : Fin 16384) (j : Fin 1024) : val_main_v72 (F := Ideal) X Y (ix2 r j) = ex (sim (rowOf X r) (rowsOf Y)) j := by
  have e : idx_main_v69 (idx_main_v70 (ix2 r j)) = ix1 r := funext fun a => by
    match a with
    | ⟨0, _⟩ => rfl
  simp only [val_main_v72_apply, val_main_v71_apply, val_main_v70_apply, val_main_v69_apply, e, simEq, topEq]
  rfl

/-- The softmax of row `r`'s similarities. -/
theorem softEq (r : Fin 16384) (j : Fin 1024) : val_main_v76 (F := Ideal) X Y (ix2 r j) = soft (sim (rowOf X r) (rowsOf Y)) j := by
  have e : ∀ k : Fin 1024, idx_main_v73 (idx_main_v74 (idx_main_v75 (ix2 r j))) k = ix2 r k := fun k => funext fun a => by
    match a with
    | ⟨0, _⟩ => rfl
    | ⟨1, _⟩ => rfl
  simp only [val_main_v76_apply, val_main_v75_apply, val_main_v74_apply, val_main_v73_apply, val_main_cst_17_apply, e, exEq]
  exact congrArg (fun s => Ideal.div (ex (sim (rowOf X r) (rowsOf Y)) j) s) (zeroW_add _)

/-- The shrunk weight of row `r` for slot `j`. -/
theorem rawEq (r : Fin 16384) (j : Fin 1024) : val_main_v86 (F := Ideal) X Y (ix2 r j) = raw (rowOf X r) (rowsOf Y) j := by
  simp only [val_main_v86_apply, val_main_v85_apply, val_main_v84_apply, val_main_v83_apply, val_main_v82_apply, val_main_v81_apply,
    val_main_v80_apply, val_main_v79_apply, val_main_v78_apply, val_main_v77_apply, val_main_call1_v0_apply, val_main_call1_cst_apply,
    val_main_cst_18_apply, val_main_cst_19_apply, val_main_cst_20_apply, softEq]
  rfl

/-- The floored absolute sum of row `r`'s shrunk weights, kept as a column. -/
theorem massEq (r : Fin 16384) (q : Fin 1) : val_main_v91 (F := Ideal) X Y (ix2 r q) = mass (rowOf X r) (rowsOf Y) := by
  have e : ∀ k : Fin 1024, idx_main_v88 (idx_main_v89 (ix2 r q)) k = ix2 r k := fun k => funext fun a => by
    match a with
    | ⟨0, _⟩ => rfl
    | ⟨1, _⟩ => rfl
  simp only [val_main_v91_apply, val_main_v90_apply, val_main_v89_apply, val_main_v88_apply, val_main_v87_apply, val_main_cst_21_apply,
    val_main_cst_22_apply, e, rawEq]
  exact congrArg (fun s => max s floorW) (zeroW_add _)

/-- The weight of row `r` for slot `j`. -/
theorem weightEq (r : Fin 16384) (j : Fin 1024) : val_main_v93 (F := Ideal) X Y (ix2 r j) = weight (rowOf X r) (rowsOf Y) j := by
  have e : idx_main_v92 (ix2 r j) = ix2 r (0 : Fin 1) := funext fun a => by
    match a with
    | ⟨0, _⟩ => rfl
    | ⟨1, _⟩ => rfl
  simp only [val_main_v93_apply, val_main_v92_apply, e, rawEq, massEq]
  rfl

/-- The memory read of row `r` at channel `k`. -/
theorem readEq (r : Fin 16384) (k : Fin 512) : val_main_v94 (F := Ideal) X Y (ix2 r k) = read (rowOf X r) (rowsOf Y) k := by
  have el : ∀ j : Fin 1024, lidx_main_v94 (ix2 r k) j = ix2 r j := fun j => funext fun a => by
    match a with
    | ⟨0, _⟩ => rfl
    | ⟨1, _⟩ => rfl
  have er : ∀ j : Fin 1024, ridx_main_v94 (ix2 r k) j = ix2 j k := fun j => funext fun a => by
    match a with
    | ⟨0, _⟩ => rfl
    | ⟨1, _⟩ => rfl
  simp only [val_main_v94_apply, el, er, weightEq]
  rfl

/-- The reference's weights are the unit's. -/
theorem weights_eq : val_main_v93 (F := Ideal) X Y = weights X Y := by
  funext i
  obtain ⟨r, j, rfl⟩ : ∃ (r : Fin 16384) (j : Fin 1024), i = ix2 r j := ⟨i 0, i 1, eq_ix2 i⟩
  rw [weightEq]
  rfl

/-- The reference's joined result is the unit's: the read in the first 512 channels, the features in the last 512. -/
theorem joined_eq : val_main_v95 (F := Ideal) X Y = joined (C := 512) (D := 1024) rfl X Y := by
  funext i
  obtain ⟨r, d, rfl⟩ : ∃ (r : Fin 16384) (d : Fin 1024), i = ix2 r d := ⟨i 0, i 1, eq_ix2 i⟩
  have hd := d.isLt
  unfold val_main_v95
  by_cases h : d.val < 512
  · rw [joined_at_read (C := 512) (D := 1024) rfl X Y (ix2 r d) r ⟨d.val, h⟩ rfl rfl, ← readEq X Y r ⟨d.val, h⟩]
    exact concatenate_pair_apply_left (s₁ := S16384x512) (s₂ := S16384x512) (t := S16384x1024) (1 : Fin S16384x1024.rank) _ _ _ (ix2 r d) rfl
      (ix2 r (⟨d.val, h⟩ : Fin 512)) (fun b => by
        match b with
        | ⟨0, _⟩ => rfl
        | ⟨1, _⟩ => rfl)
  · rw [joined_at_feat (C := 512) (D := 1024) rfl X Y (ix2 r d) r ⟨d.val - 512, by omega⟩ rfl (by show d.val = 512 + (d.val - 512); omega)]
    exact concatenate_pair_apply_right (s₁ := S16384x512) (s₂ := S16384x512) (t := S16384x1024) (1 : Fin S16384x1024.rank) _ _ _ (ix2 r d) rfl rfl
      (ix2 r (⟨d.val - 512, by omega⟩ : Fin 512)) (fun b hb => by
        match b with
        | ⟨0, _⟩ => rfl
        | ⟨1, _⟩ => exact absurd rfl hb) (by show d.val - 512 + 512 = d.val; omega)

end Cert.ReferenceIdeal.Unit1

end
-- ==== Proof.Unit2Ref.lean ====
/-
  Memory unit 2 (1024 channels): the reference's two results, read entry by entry, are the unit's functions of the argument arrays.

  The reference computes on whole arrays (16384 feature rows, 1024 memory rows). Every operation of it acts on each row by itself: a
  row's sum or maximum over the lanes, the column so obtained spread back over the row, a pointwise operation, and two matrix
  products whose entry at a row depends on that row of the left operand only. Read at row `r`, stage after stage, its values are the
  stages of `MemUnit` at feature row `r`: the row's floored length, the unit rows, the similarities, their maximum (jax's softmax
  takes the maximum of −∞ and the row's maximum from −∞, which is the row's maximum), the softmax, the shrunk weights, their floored
  absolute sum, the weights, and the memory read. The joined result holds the read in its first 1024 channels and the features in its
  last 1024.
-/
import proofs.«148232_j41257455845951_1_alg».proof.Proof.RefRead
import proofs.«148232_j41257455845951_1_alg».proof.Proof.MemUnit
import proofs.«148232_j41257455845951_1_alg».proof.Proof.LibRowOps
import Idealize.ShloMosaic.Lib.ValueIdx
import Idealize.ShloMosaic.Lib.Pipeline.Value
import Idealize.ShloMosaic.PureOps.Ideal.Laws

noncomputable section

open scoped BigOperators

namespace Cert.ReferenceIdeal.Unit2

open Cert.ReferenceIdeal Cert.ReferenceIdeal.Gen Cert.ReferenceIdeal.ReadP Idealize.ShloMosaic Idealize.ShloMosaic.ValueIdx Cert.MemUnit Cert.RowOps

variable (X : (⟨S16384x1024, .f32⟩ : BufTy).Contents (Elt Ideal)) (Y : (⟨S1024x1024, .f32⟩ : BufTy).Contents (Elt Ideal))

/-- The floored length of feature row `r`, kept as a column. -/
theorem featLen (r : Fin 16384) (q : Fin 1) : val_main_v101 (F := Ideal) X (ix2 r q) = len (rowOf X r) := by
  have e : ∀ k : Fin 1024, idx_main_v97 (idx_main_v98 (ix2 r q)) k = ix2 r k := fun k => funext fun a => by
    match a with
    | ⟨0, _⟩ => rfl
    | ⟨1, _⟩ => rfl
  simp only [val_main_v101_apply, val_main_v99_apply, val_main_v98_apply, val_main_v97_apply, val_main_v96_apply, val_main_v100_apply,
    val_main_cst_23_apply, val_main_cst_24_apply, e]
  exact congrArg (fun s => max (Ideal.sqrt s) floorW) (zeroW_add _)

/-- The floored length of memory row `j`, kept as a column. -/
theorem memLen (j : Fin 1024) (q : Fin 1) : val_main_v109 (F := Ideal) Y (ix2 j q) = len (rowOf Y j) := by
  have e : ∀ k : Fin 1024, idx_main_v105 (idx_main_v106 (ix2 j q)) k = ix2 j k := fun k => funext fun a => by
    match a with
    | ⟨0, _⟩ => rfl
    | ⟨1, _⟩ => rfl
  simp only [val_main_v109_apply, val_main_v107_apply, val_main_v106_apply, val_main_v105_apply, val_main_v104_apply, val_main_v108_apply,
    val_main_cst_25_apply, val_main_cst_26_apply, e]
  exact congrArg (fun s => max (Ideal.sqrt s) floorW) (zeroW_add _)

/-- Feature row `r` scaled to unit length. -/
theorem featUnit (r : Fin 16384) (k : Fin 1024) : val_main_v103 (F := Ideal) X (ix2 r k) = unit (rowOf X r) k := by
  have e : idx_main_v102 (ix2 r k) = ix2 r (0 : Fin 1) := funext fun a => by
    match a with
    | ⟨0, _⟩ => rfl
    | ⟨1, _⟩ => rfl
  simp only [val_main_v103_apply, val_main_v102_apply, e, featLen]
  rfl

/-- Memory row `j` scaled to unit length. -/
theorem memUnit (j : Fin 1024) (k : Fin 1024) : val_main_v111 (F := Ideal) Y (ix2 j k) = unit (rowOf Y j) k := by
  have e : idx_main_v110 (ix2 j k) = ix2 j (0 : Fin 1) := funext fun a => by
    match a with
    | ⟨0, _⟩ => rfl
    | ⟨1, _⟩ => rfl
  simp only [val_main_v111_apply, val_main_v110_apply, e, memLen]
  rfl

/-- The similarity of feature row `r` to memory slot `j`. -/
theorem simEq (r : Fin 16384) (j : Fin 1024) : val_main_v113 (F := Ideal) X Y (ix2 r j) = sim (rowOf X r) (rowsOf Y) j := by
  have el : ∀ k : Fin 1024, lidx_main_v113 (ix2 r j) k = ix2 r k := fun k => funext fun a => by
    match a with
    | ⟨0, _⟩ => rfl
    | ⟨1, _⟩ => rfl
  have er : ∀ k : Fin 1024, idx_main_v112 (ridx_main_v113 (ix2 r j) k) = ix2 j k := fun k => funext fun a => by
    match a with
    | ⟨0, _⟩ => rfl
    | ⟨1, _⟩ => rfl
  simp only [val_main_v113_apply, val_main_v112_apply, el, er, featUnit, memUnit]
  rfl

/-- The maximum of row `r`'s similarities. -/
theorem topEq (r : Fin 16384) : val_main_v116 (F := Ideal) X Y (ix1 r) = top (sim (rowOf X r) (rowsOf Y)) := by
  rw [val_main_v116_apply]
  unfold val_main_v114
  rw [hostLaneMax_apply (val_main_v113 (F := Ideal) X Y) (val_main_cst_27 (F := Ideal)) reducesTo_S16384x1024_S16384_d1 (by decide) h_S_ r]
  simp only [simEq]
  exact bottomW_max _

/-- The shifted exponential of a similarity. -/
theorem exEq (r : Fin 16384) (j : Fin 1024) : val_main_v120 (F := Ideal) X Y (ix2 r j) = ex (sim (rowOf X r) (rowsOf Y)) j := by
  have e : idx_main_v117 (idx_main_v118 (ix2 r j)) = ix1 r := funext fun a => by
    match a with
    | ⟨0, _⟩ => rfl
  simp only [val_main_v120_apply, val_main_v119_apply, val_main_v118_apply, val_main_v117_apply, e, simEq, topEq]
  rfl

/-- The softmax of row `r`'s similarities. -/
theorem softEq (r : Fin 16384) (j : Fin 1024) : val_main_v124 (F := Ideal) X Y (ix2 r j) = soft (sim (rowOf X r) (rowsOf Y)) j := by
  have e : ∀ k : Fin 1024, idx_main_v121 (idx_main_v122 (idx_main_v123 (ix2 r j))) k = ix2 r k := fun k => funext fun a => by
    match a with
    | ⟨0, _⟩ => rfl
    | ⟨1, _⟩ => rfl
  simp only [val_main_v124_apply, val_main_v123_apply, val_main_v122_apply, val_main_v121_apply, val_main_cst_29_apply, e, exEq]
  exact congrArg (fun s => Ideal.div (ex (sim (rowOf X r) (rowsOf Y)) j) s) (zeroW_add _)

/-- The shrunk weight of row `r` for slot `j`. -/
theorem rawEq (r : Fin 16384) (j : Fin 1024) : val_main_v134 (F := Ideal) X Y (ix2 r j) = raw (rowOf X r) (rowsOf Y) j := by
  simp only [val_main_v134_apply, val_main_v133_apply, val_main_v132_apply, val_main_v131_apply, val_main_v130_apply, val_main_v129_apply,
    val_main_v128_apply, val_main_v127_apply, val_main_v126_apply, val_main_v125_apply, val_main_call2_v0_apply, val_main_call2_cst_apply,
    val_main_cst_30_apply, val_main_cst_31_apply, val_main_cst_32_apply, softEq]
  rfl

/-- The floored absolute sum of row `r`'s shrunk weights, kept as a column. -/
theorem massEq (r : Fin 16384) (q : Fin 1) : val_main_v139 (F := Ideal) X Y (ix2 r q) = mass (rowOf X r) (rowsOf Y) := by
  have e : ∀ k : Fin 1024, idx_main_v136 (idx_main_v137 (ix2 r q)) k = ix2 r k := fun k => funext fun a => by
    match a with
    | ⟨0, _⟩ => rfl
    | ⟨1, _⟩ => rfl
  simp only [val_main_v139_apply, val_main_v138_apply, val_main_v137_apply, val_main_v136_apply, val_main_v135_apply, val_main_cst_33_apply,
    val_main_cst_34_apply, e, rawEq]
  exact congrArg (fun s => max s floorW) (zeroW_add _)

/-- The weight of row `r` for slot `j`. -/
theorem weightEq (r : Fin 16384) (j : Fin 1024) : val_main_v141 (F := Ideal) X Y (ix2 r j) = weight (rowOf X r) (rowsOf Y) j := by
  have e : idx_main_v140 (ix2 r j) = ix2 r (0 : Fin 1) := funext fun a => by
    match a with
    | ⟨0, _⟩ => rfl
    | ⟨1, _⟩ => rfl
  simp only [val_main_v141_apply, val_main_v140_apply, e, rawEq, massEq]
  rfl

/-- The memory read of row `r` at channel `k`. -/
theorem readEq (r : Fin 16384) (k : Fin 1024) : val_main_v142 (F := Ideal) X Y (ix2 r k) = read (rowOf X r) (rowsOf Y) k := by
  have el : ∀ j : Fin 1024, lidx_main_v142 (ix2 r k) j = ix2 r j := fun j => funext fun a => by
    match a with
    | ⟨0, _⟩ => rfl
    | ⟨1, _⟩ => rfl
  have er : ∀ j : Fin 1024, ridx_main_v142 (ix2 r k) j = ix2 j k := fun j => funext fun a => by
    match a with
    | ⟨0, _⟩ => rfl
    | ⟨1, _⟩ => rfl
  simp only [val_main_v142_apply, el, er, weightEq]
  rfl

/-- The reference's weights are the unit's. -/
theorem weights_eq : val_main_v141 (F := Ideal) X Y = weights X Y := by
  funext i
  obtain ⟨r, j, rfl⟩ : ∃ (r : Fin 16384) (j : Fin 1024), i = ix2 r j := ⟨i 0, i 1, eq_ix2 i⟩
  rw [weightEq]
  rfl

/-- The reference's joined result is the unit's: the read in the first 1024 channels, the features in the last 1024. -/
theorem joined_eq : val_main_v143 (F := Ideal) X Y = joined (C := 1024) (D := 2048) rfl X Y := by
  funext i
  obtain ⟨r, d, rfl⟩ : ∃ (r : Fin 16384) (d : Fin 2048), i = ix2 r d := ⟨i 0, i 1, eq_ix2 i⟩
  have hd := d.isLt
  unfold val_main_v143
  by_cases h : d.val < 1024
  · rw [joined_at_read (C := 1024) (D := 2048) rfl X Y (ix2 r d) r ⟨d.val, h⟩ rfl rfl, ← readEq X Y r ⟨d.val, h⟩]
    exact concatenate_pair_apply_left (s₁ := S16384x1024) (s₂ := S16384x1024) (t := S16384x2048) (1 : Fin S16384x2048.rank) _ _ _ (ix2 r d) rfl
      (ix2 r (⟨d.val, h⟩ : Fin 1024)) (fun b => by
        match b with
        | ⟨0, _⟩ => rfl
        | ⟨1, _⟩ => rfl)
  · rw [joined_at_feat (C := 1024) (D := 2048) rfl X Y (ix2 r d) r ⟨d.val - 1024, by omega⟩ rfl (by show d.val = 1024 + (d.val - 1024); omega)]
    exact concatenate_pair_apply_right (s₁ := S16384x1024) (s₂ := S16384x1024) (t := S16384x2048) (1 : Fin S16384x2048.rank) _ _ _ (ix2 r d) rfl rfl
      (ix2 r (⟨d.val - 1024, by omega⟩ : Fin 1024)) (fun b hb => by
        match b with
        | ⟨0, _⟩ => rfl
        | ⟨1, _⟩ => exact absurd rfl hb) (by show d.val - 1024 + 1024 = d.val; omega)

end Cert.ReferenceIdeal.Unit2

end
-- ==== Proof.RefResult.lean ====
/-
  The reference's run with its six results named as the memory units' functions of the launch arrays.

  The reference applies the three memory units one after the other, each to its own feature and memory arrays; its run ends with
  every result at the composed term of the operations that produce it, and that term, read entry by entry, is `MemUnit.joined`
  (results 0 to 2) or `MemUnit.weights` (results 3 to 5) of the unit's two argument arrays.
-/
import proofs.«148232_j41257455845951_1_alg».proof.Proof.RefRun
import proofs.«148232_j41257455845951_1_alg».proof.Proof.RefRead
import proofs.«148232_j41257455845951_1_alg».proof.Proof.Unit0Ref
import proofs.«148232_j41257455845951_1_alg».proof.Proof.Unit1Ref
import proofs.«148232_j41257455845951_1_alg».proof.Proof.Unit2Ref

noncomputable section

namespace Cert.ReferenceIdeal.Result

open Cert.ReferenceIdeal Idealize.ShloMosaic Idealize.ShloMosaic.TcCoe Idealize.SL.Sem Cert.MemUnit

variable (m : (ℓ : Loc nD τ sig) → Buf (Elt Ideal) ℓ) (ρ : Dev nD → PrngReg)

/-- Every weakly fair execution of the reference terminates, nothing faulting, with the six results at the memory units' functions of
    the launch arrays and the argument arrays unchanged. -/
theorem run : θ_run defs (onTc (τ := τ) (main (F := Ideal))) ⟨m, fun _ => 0, ρ⟩ (fun r => ∀ c : Dev nD,
      r.2.mem ((c.tc : Thread nD τ).loc main_v47) = joined (C := 256) (D := 512) rfl (m ((c.tc : Thread nD τ).loc main_arg0)) (m ((c.tc : Thread nD τ).loc main_arg3))
      ∧ r.2.mem ((c.tc : Thread nD τ).loc main_v95) = joined (C := 512) (D := 1024) rfl (m ((c.tc : Thread nD τ).loc main_arg1)) (m ((c.tc : Thread nD τ).loc main_arg4))
      ∧ r.2.mem ((c.tc : Thread nD τ).loc main_v143) = joined (C := 1024) (D := 2048) rfl (m ((c.tc : Thread nD τ).loc main_arg2)) (m ((c.tc : Thread nD τ).loc main_arg5))
      ∧ r.2.mem ((c.tc : Thread nD τ).loc main_v45) = weights (m ((c.tc : Thread nD τ).loc main_arg0)) (m ((c.tc : Thread nD τ).loc main_arg3))
      ∧ r.2.mem ((c.tc : Thread nD τ).loc main_v93) = weights (m ((c.tc : Thread nD τ).loc main_arg1)) (m ((c.tc : Thread nD τ).loc main_arg4))
      ∧ r.2.mem ((c.tc : Thread nD τ).loc main_v141) = weights (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c).1.trans ((ReadP.val_main_v47_eq m c).trans (Unit0.joined_eq _ _)),
     (h c).2.1.trans ((ReadP.val_main_v95_eq m c).trans (Unit1.joined_eq _ _)),
     (h c).2.2.1.trans ((ReadP.val_main_v143_eq m c).trans (Unit2.joined_eq _ _)),
     (h c).2.2.2.1.trans ((ReadP.val_main_v45_eq m c).trans (Unit0.weights_eq _ _)),
     (h c).2.2.2.2.1.trans ((ReadP.val_main_v93_eq m c).trans (Unit1.weights_eq _ _)),
     (h c).2.2.2.2.2.1.trans ((ReadP.val_main_v141_eq m c).trans (Unit2.weights_eq _ _)),
     (h c).2.2.2.2.2.2⟩)
    (Cert.ReferenceIdeal.ValueP.run (F := Ideal) m ρ)

end Cert.ReferenceIdeal.Result

end
-- ==== Proof.lean ====
/-
  The certificate of three memory-read units (256, 512 and 1024 channels; 16384 feature rows against 1024 memory slots each).

  One unit scales every feature row and every memory row to unit length, takes the rows' inner products, passes each feature row's
  similarities through a softmax, shrinks the weights towards zero and scales them to unit absolute sum, and returns the weights and
  the read of the memory under them joined with the features (`Proof/MemUnit.lean`). The kernel runs the three units as three
  pallas_calls, 256 feature rows to a grid point; the reference computes them on whole arrays. On the extended reals both are the
  same function of the arguments entry by entry, with no law of arithmetic between them: a change of float format is the identity,
  a matrix product into a zero accumulator is the sum of products, every row operation sees one row at a time, and jax's softmax
  takes its maximum from −∞ twice over. The kernel's side is read off its generated frame (`Proof/Unit*Body.lean` for a block,
  `Proof/Unit*Array.lean` for the arrays after the 64 points, `Proof/KernelResult.lean` for @main); the reference's side is read
  off its run, one operation at a time (`Proof/Unit*Ref.lean`, `Proof/RefResult.lean`). The three frames are the generated ones
  (the reference's is its run with the results dropped); the ideal pass rewrote nothing, so `preserves` asks nothing.
-/
import proofs.«148232_j41257455845951_1_alg».proof.Defs
import proofs.«148232_j41257455845951_1_alg».proof.Proof.Gen.Kernel
import proofs.«148232_j41257455845951_1_alg».proof.Proof.Gen.Kernel.Skeleton
import proofs.«148232_j41257455845951_1_alg».proof.Proof.Gen.Kernel.Launch
import proofs.«148232_j41257455845951_1_alg».proof.Proof.Gen.Kernel.Points
import proofs.«148232_j41257455845951_1_alg».proof.Proof.Gen.Kernel.Frame
import proofs.«148232_j41257455845951_1_alg».proof.Proof.Gen.KernelIdeal
import proofs.«148232_j41257455845951_1_alg».proof.Proof.Gen.KernelIdeal.Skeleton
import proofs.«148232_j41257455845951_1_alg».proof.Proof.Gen.KernelIdeal.Launch
import proofs.«148232_j41257455845951_1_alg».proof.Proof.Gen.KernelIdeal.Points
import proofs.«148232_j41257455845951_1_alg».proof.Proof.Gen.KernelIdeal.Frame
import proofs.«148232_j41257455845951_1_alg».proof.Proof.Gen.ReferenceIdeal
import proofs.«148232_j41257455845951_1_alg».proof.Proof.Gen.Pre_finite_inputs
import proofs.«148232_j41257455845951_1_alg».proof.Proof.KernelResult
import proofs.«148232_j41257455845951_1_alg».proof.Proof.RefResult
import Idealize.ShloMosaic.Adequacy
import Idealize.ShloMosaic.Init

noncomputable section

namespace Cert.Proof

open Idealize.ShloMosaic Idealize.SL.Sem Cert.MemUnit

/-- The word-level kernel terminates without a fault and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the results dropped. -/
theorem frame_referenceIdeal : Cert.frame_ReferenceIdeal := fun m ρ _ =>
  (θ_run Cert.ReferenceIdeal.defs _ _).mono (fun _ h c => (h c).2.2.2.2.2.2) (Cert.ReferenceIdeal.ValueP.run (F := Ideal) m ρ)

/-- From memories that agree on the six arguments, both programs end with result `k` at `MemUnit.joined` and result `3 + k` at
    `MemUnit.weights` of feature array `k` and memory array `k`. -/
theorem algebraic : Cert.algebraic_KernelIdeal_ReferenceIdeal := by
  intro m ρ m' ρ' _ hagree
  refine ⟨_, _, _, _, _, _, Cert.KernelIdeal.Result.run m ρ, ?_⟩
  refine (θ_run Cert.ReferenceIdeal.defs _ _).mono (fun r h c => ?_) (Cert.ReferenceIdeal.Result.run m' ρ')
  obtain ⟨a0, a1, a2, a3, a4, a5⟩ := hagree c
  obtain ⟨h0, h1, h2, h3, h4, h5, hargs⟩ := h c
  exact ⟨by rw [h0, a0, a3], by rw [h1, a1, a4], by rw [h2, a2, a5], by rw [h3, a0, a3], by rw [h4, a1, a4], by rw [h5, a2, a5], hargs⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
